-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S1x16777216 : Shape := ⟨2, ![1, 16777216]⟩
abbrev S2x24x128 : Shape := ⟨3, ![2, 24, 128]⟩
abbrev S1x32768 : Shape := ⟨2, ![1, 32768]⟩
abbrev S1x24x128 : Shape := ⟨3, ![1, 24, 128]⟩
abbrev S24x128 : Shape := ⟨2, ![24, 128]⟩
abbrev S4x32768 : Shape := ⟨2, ![4, 32768]⟩
abbrev S128x1 : Shape := ⟨2, ![128, 1]⟩
abbrev S128x32768 : Shape := ⟨2, ![128, 32768]⟩
abbrev S24x32768 : Shape := ⟨2, ![24, 32768]⟩
abbrev S_ : Shape := ⟨0, ![]⟩
abbrev S6x4x128 : Shape := ⟨3, ![6, 4, 128]⟩
abbrev S4x6x128 : Shape := ⟨3, ![4, 6, 128]⟩
abbrev S4x768 : Shape := ⟨2, ![4, 768]⟩
abbrev S1x671 : Shape := ⟨2, ![1, 671]⟩
abbrev S671 : Shape := ⟨1, ![671]⟩

abbrev nBuf : Space → Nat
  | .hbm => 51
  | .vmem => 9
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S1x16777216, .f32⟩
  | .hbm, ⟨4, _⟩ => ⟨S1x16777216, .f32⟩
  | .hbm, ⟨5, _⟩ => ⟨S1x16777216, .i32⟩
  | .hbm, ⟨6, _⟩ => ⟨S2x24x128, .f32⟩
  | .hbm, ⟨7, _⟩ => ⟨S_, .f32⟩
  | .hbm, ⟨8, _⟩ => ⟨S24x128, .f32⟩
  | .hbm, ⟨9, _⟩ => ⟨S6x4x128, .f32⟩
  | .hbm, ⟨10, _⟩ => ⟨S4x6x128, .f32⟩
  | .hbm, ⟨11, _⟩ => ⟨S4x768, .f32⟩
  | .hbm, ⟨12, _⟩ => ⟨S1x671, .f32⟩
  | .hbm, ⟨13, _⟩ => ⟨S671, .f32⟩
  | .hbm, ⟨14, _⟩ => ⟨S1x671, .f32⟩
  | .hbm, ⟨15, _⟩ => ⟨S671, .f32⟩
  | .hbm, ⟨16, _⟩ => ⟨S1x671, .f32⟩
  | .hbm, ⟨17, _⟩ => ⟨S671, .f32⟩
  | .hbm, ⟨18, _⟩ => ⟨S1x671, .f32⟩
  | .hbm, ⟨19, _⟩ => ⟨S671, .f32⟩
  | .hbm, ⟨20, _⟩ => ⟨S_, .f32⟩
  | .hbm, ⟨21, _⟩ => ⟨S671, .f32⟩
  | .hbm, ⟨22, _⟩ => ⟨S671, .f32⟩
  | .hbm, ⟨23, _⟩ => ⟨S_, .f32⟩
  | .hbm, ⟨24, _⟩ => ⟨S671, .f32⟩
  | .hbm, ⟨25, _⟩ => ⟨S671, .i1⟩
  | .hbm, ⟨26, _⟩ => ⟨S671, .f32⟩
  | .hbm, ⟨27, _⟩ => ⟨S671, .f32⟩
  | .hbm, ⟨28, _⟩ => ⟨S671, .f32⟩
  | .hbm, ⟨29, _⟩ => ⟨S_, .f32⟩
  | .hbm, ⟨30, _⟩ => ⟨S_, .f32⟩
  | .hbm, ⟨31, _⟩ => ⟨S671, .f32⟩
  | .hbm, ⟨32, _⟩ => ⟨S671, .f32⟩
  | .hbm, ⟨33, _⟩ => ⟨S_, .f32⟩
  | .hbm, ⟨34, _⟩ => ⟨S671, .f32⟩
  | .hbm, ⟨35, _⟩ => ⟨S671, .i1⟩
  | .hbm, ⟨36, _⟩ => ⟨S_, .f32⟩
  | .hbm, ⟨37, _⟩ => ⟨S_, .f32⟩
  | .hbm, ⟨38, _⟩ => ⟨S671, .f32⟩
  | .hbm, ⟨39, _⟩ => ⟨S671, .f32⟩
  | .hbm, ⟨40, _⟩ => ⟨S_, .f32⟩
  | .hbm, ⟨41, _⟩ => ⟨S671, .f32⟩
  | .hbm, ⟨42, _⟩ => ⟨S671, .f32⟩
  | .hbm, ⟨43, _⟩ => ⟨S671, .f32⟩
  | .hbm, ⟨44, _⟩ => ⟨S_, .f32⟩
  | .hbm, ⟨45, _⟩ => ⟨S671, .f32⟩
  | .hbm, ⟨46, _⟩ => ⟨S671, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1x32768, .f32⟩
  | .local _ .vmem, ⟨1, _⟩ => ⟨S1x32768, .f32⟩
  | .local _ .vmem, ⟨2, _⟩ => ⟨S1x32768, .f32⟩
  | .local _ .vmem, ⟨3, _⟩ => ⟨S1x32768, .f32⟩
  | .local _ .vmem, ⟨4, _⟩ => ⟨S1x32768, .i32⟩
  | .local _ .vmem, ⟨5, _⟩ => ⟨S1x32768, .i32⟩
  | .local _ .vmem, ⟨6, _⟩ => ⟨S1x24x128, .f32⟩
  | .local _ .vmem, ⟨7, _⟩ => ⟨S1x24x128, .f32⟩
  | .local _ .vmem, ⟨8, _⟩ => ⟨S24x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v77 : BitVec 1 := Scalar.cmpi .eq arg1 c255_i32
  let v78 : BitVec 32 := Scalar.extui v77
  let c0_i32_12 : BitVec 32 := 0#32
  let v79 : BitVec 1 := Scalar.cmpi .ne v78 c0_i32_12
  v79

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216_S1x16777216 : S16777216.ShapeCasts S1x16777216
  inb_S24x128_S24x128_0_0 : ∀ a, (![0, 0] : Fin 2 → Nat) a + S24x128.size a ≤ S24x128.size a
  h_S24x128 : 0 < S24x128.numel
  shapeCasts_S24x128_S24x128 : S24x128.ShapeCasts S24x128
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  concatenates_S1x32768_S1x32768_S1x32768_S1x32768_S4x32768_d0 : Shape.Concatenates [S1x32768, S1x32768, S1x32768, S1x32768] S4x32768 0
  bitsLt_bf16_f32 : FTy.bits .bf16 < FTy.bits .f32
  iota_S128x1_d0_w32 : S128x1.Iotas .tc 32 [0]
  broadcasts_S128x1_S128x32768 : S128x1.Broadcasts S128x32768
  broadcasts_S1x32768_S128x32768 : S1x32768.Broadcasts S128x32768
  natLt_1_32 : 1 < 32
  broadcasts_S1x32768_S4x32768 : S1x32768.Broadcasts S4x32768
  concatenates_S4x32768_S4x32768_S4x32768_S4x32768_S4x32768_S4x32768_S24x32768_d0 : Shape.Concatenates [S4x32768, S4x32768, S4x32768, S4x32768, S4x32768, S4x32768] S24x32768 0
  inb_S1x24x128_S1x24x128_0_0_0 : ∀ a, (![0, 0, 0] : Fin 3 → Nat) a + S1x24x128.size a ≤ S1x24x128.size a
  h_S1x24x128 : 0 < S1x24x128.numel
  shapeCasts_S1x24x128_S24x128 : S1x24x128.ShapeCasts S24x128
  shapeCasts_S24x128_S1x24x128 : S24x128.ShapeCasts S1x24x128
  reducesTo_S2x24x128_S24x128_d0 : S2x24x128.ReducesTo [0] S24x128
  h_S_ : 0 < S_.numel
  shapeCasts_S24x128_S6x4x128 : S24x128.ShapeCasts S6x4x128
  transposes_S6x4x128_S4x6x128_1_0_2 : S6x4x128.Transposes [1, 0, 2] S4x6x128
  shapeCasts_S4x6x128_S4x768 : S4x6x128.ShapeCasts S4x768
  slices_S4x768_S1x671_0_0 : S4x768.Slices ![0, 0] S1x671
  shapeCasts_S1x671_S671 : S1x671.ShapeCasts S671
  slices_S4x768_S1x671_1_0 : S4x768.Slices ![1, 0] S1x671
  slices_S4x768_S1x671_2_0 : S4x768.Slices ![2, 0] S1x671
  slices_S4x768_S1x671_3_0 : S4x768.Slices ![3, 0] S1x671
  bcast_S_S671 : S_.BroadcastsInDim S671 (![] : Fin 0 → Fin S671.rank)
  reducesTo_S671_S_d0 : S671.ReducesTo [0] S_
  dot_S24x32768_S128x32768_S24x128_1_1_0_0_n_n_wf : DotDims.WF S24x32768 S128x32768 S24x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x16777216.size a
  hwx0_0 : ∀ i : grid0.Coords, EltTy.bits .f32 = 32 ∨ (Rect.block (s := S1x16777216) S1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x16777216.size a
  hwx0_1 : ∀ i : grid0.Coords, EltTy.bits .f32 = 32 ∨ (Rect.block (s := S1x16777216) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x16777216.size a
  hwx0_2 : ∀ i : grid0.Coords, EltTy.bits .i32 = 32 ∨ (Rect.block (s := S1x16777216) S1x32768.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x128.size a ≤ S2x24x128.size a
  hwx0_3 : ∀ i : grid0.Coords, EltTy.bits .f32 = 32 ∨ (Rect.block (s := S2x24x128) S1x24x128.size (cc0_transform_3 i) (hinb0_3 i)).WholeWords (EltTy.packing .f32)

variable [Facts₀]

def dot_S24x32768_S128x32768_S24x128_1_1_0_0_n_n : DotDims S24x32768 S128x32768 S24x128 where
  lhsContracting := [1]
  rhsContracting := [1]
  lhsNonContracting := [0]
  rhsNonContracting := [0]
  lhsBatch := []
  rhsBatch := []
  wf := dot_S24x32768_S128x32768_S24x128_1_1_0_0_n_n_wf

abbrev win0_0 : Pipeline.Window sig grid0 :=
  Pipeline.Window.ofSpec (Memref.whole main_v0) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x24x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S671 : Shape := ⟨1, ![671]⟩
abbrev S16777216x1 : Shape := ⟨2, ![16777216, 1]⟩

abbrev nBuf : Space → Nat
  | .hbm => 46
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S_, .f32⟩
  | .hbm, ⟨4, _⟩ => ⟨S16777216, .f32⟩
  | .hbm, ⟨5, _⟩ => ⟨S_, .f32⟩
  | .hbm, ⟨6, _⟩ => ⟨S671, .f32⟩
  | .hbm, ⟨7, _⟩ => ⟨S16777216x1, .i32⟩
  | .hbm, ⟨8, _⟩ => ⟨S671, .f32⟩
  | .hbm, ⟨9, _⟩ => ⟨S_, .f32⟩
  | .hbm, ⟨10, _⟩ => ⟨S671, .f32⟩
  | .hbm, ⟨11, _⟩ => ⟨S16777216x1, .i32⟩
  | .hbm, ⟨12, _⟩ => ⟨S671, .f32⟩
  | .hbm, ⟨13, _⟩ => ⟨S671, .f32⟩
  | .hbm, ⟨14, _⟩ => ⟨S16777216, .f32⟩
  | .hbm, ⟨15, _⟩ => ⟨S16777216, .f32⟩
  | .hbm, ⟨16, _⟩ => ⟨S_, .f32⟩
  | .hbm, ⟨17, _⟩ => ⟨S671, .f32⟩
  | .hbm, ⟨18, _⟩ => ⟨S16777216x1, .i32⟩
  | .hbm, ⟨19, _⟩ => ⟨S671, .f32⟩
  | .hbm, ⟨20, _⟩ => ⟨S_, .i32⟩
  | .hbm, ⟨21, _⟩ => ⟨S16777216, .i32⟩
  | .hbm, ⟨22, _⟩ => ⟨S16777216, .i1⟩
  | .hbm, ⟨23, _⟩ => ⟨S_, .i32⟩
  | .hbm, ⟨24, _⟩ => ⟨S16777216, .i32⟩
  | .hbm, ⟨25, _⟩ => ⟨S16777216, .i32⟩
  | .hbm, ⟨26, _⟩ => ⟨S16777216, .i32⟩
  | .hbm, ⟨27, _⟩ => ⟨S16777216x1, .i32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S671, .f32⟩
  | .hbm, ⟨33, _⟩ => ⟨S16777216x1, .i32⟩
  | .hbm, ⟨34, _⟩ => ⟨S671, .f32⟩
  | .hbm, ⟨35, _⟩ => ⟨S_, .f32⟩
  | .hbm, ⟨36, _⟩ => ⟨S671, .f32⟩
  | .hbm, ⟨37, _⟩ => ⟨S671, .f32⟩
  | .hbm, ⟨38, _⟩ => ⟨S671, .f32⟩
  | .hbm, ⟨39, _⟩ => ⟨S_, .f32⟩
  | .hbm, ⟨40, _⟩ => ⟨S671, .f32⟩
  | .hbm, ⟨41, _⟩ => ⟨S671, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S671 : S_.BroadcastsInDim S671 (![] : Fin 0 → Fin S671.rank)
  bcast_S16777216_S16777216x1_0 : S16777216.BroadcastsInDim S16777216x1 (![0] : Fin 1 → Fin S16777216x1.rank)
  reducesTo_S671_S_d0 : S671.ReducesTo [0] S_
  h_S_ : 0 < S_.numel
  scatter_S671_S16777216x1_S16777216_n_0_0_1_wf : ScatterDims.WF S671 S16777216x1 S16777216 [] [0] [0] 1
  gather_S671_S16777216x1_S16777216_n_0_n_n_0_1_1_wf : GatherDims.WF S671 S16777216x1 S16777216 [] [0] [] [0] [] 1 ![1]

variable [Facts₀]

def scatter_S671_S16777216x1_S16777216_n_0_0_1 : ScatterDims S671 S16777216x1 S16777216 where
  updateWindowDims := []
  insertedWindowDims := [0]
  scatterDimsToOperandDims := [0]
  indexVectorDim := 1
  wf := scatter_S671_S16777216x1_S16777216_n_0_0_1_wf
def gather_S671_S16777216x1_S16777216_n_0_n_n_0_1_1 : GatherDims S671 S16777216x1 S16777216 where
  offsetDims := []
  collapsedSliceDims := [0]
  operandBatchingDims := []
  startIndicesBatchingDims := []
  startIndexMap := [0]
  indexVectorDim := 1
  sliceSizes := ![1]
  wf := gather_S671_S16777216x1_S16777216_n_0_n_n_0_1_1_wf

class Facts : Prop extends Facts₀ where

variable [Facts]
-- ==== Proof.Spec.lean ====
/-
  The quantities both programs compute, stated once over the flat argument arrays.

  Every element i carries a basin id seg i (a 32-bit word read signed) and four quantities: 1, y i, (y i)², (y i − p i)².
  Basin b's total of a quantity is the sum over the elements whose id is b.  The kernel reaches those totals by splitting
  an id into its high part (id / 128) and low part (id mod 128), block by block over 512 blocks of 32768 elements; the
  reference reaches them by scattering.  From the totals the kernel forms, per basin, 1 − res / (s2 − s·s / max(c,1) + ε)
  (guarded where the basin is empty), the reference 1 − res / (Σ (y − s/c)² + ε); the result is the mean over 671 basins.
-/
import Idealize.ShloMosaic.PureOps.Ideal
import Idealize.ShloMosaic.Lib.ValueIdx

noncomputable section

open scoped BigOperators

namespace Cert.Basins

open Idealize.ShloMosaic Idealize.ShloMosaic.ValueIdx

/-- The flat arrays' shape, one block's shape, the accumulator's shape and the kernel's output shape. -/
abbrev Flat : Shape := ⟨1, ![16777216]⟩
abbrev Blk : Shape := ⟨2, ![1, 32768]⟩
abbrev Acc : Shape := ⟨2, ![24, 128]⟩
abbrev Out : Shape := ⟨3, ![2, 24, 128]⟩

/-- The float literals both programs print, read as extended reals: 1, 0, ε and 671. -/
abbrev one : EReal := Ideal.ofBits .f32 0x3F800000#32
abbrev zero : EReal := Ideal.ofBits .f32 0x00000000#32
abbrev eps : EReal := Ideal.ofBits .f32 0x2EDBE6FF#32
abbrev nbasins : EReal := Ideal.ofBits .f32 0x4427C000#32

/-- Quantity q of element i: 1, y, y², (y − p)². -/
def datum (p y : Flat.Idx → EReal) (q : Fin 4) (i : Fin 16777216) : EReal :=
  match q with
  | 0 => one
  | 1 => y (ix1 i)
  | 2 => y (ix1 i) * y (ix1 i)
  | 3 => (y (ix1 i) - p (ix1 i)) * (y (ix1 i) - p (ix1 i))

/-- Basin b's total of quantity q: over the elements whose id, read signed, is b. -/
def tot (p y : Flat.Idx → EReal) (seg : Flat.Idx → BitVec 32) (q : Fin 4) (b : Nat) : EReal :=
  ∑ i : Fin 16777216, if (seg (ix1 i)).toInt = (b : Int) then datum p y q i else 0

/-! ## The kernel's side -/

/-- Quantity q of position k of a block: p's block is x0, y's block x1. -/
def bdatum (x0 x1 : Blk.Idx → EReal) (q : Fin 4) (k : Fin 32768) : EReal :=
  match q with
  | 0 => one
  | 1 => x1 (ix2 (0 : Fin 1) k)
  | 2 => x1 (ix2 (0 : Fin 1) k) * x1 (ix2 (0 : Fin 1) k)
  | 3 => (x1 (ix2 (0 : Fin 1) k) - x0 (ix2 (0 : Fin 1) k)) * (x1 (ix2 (0 : Fin 1) k) - x0 (ix2 (0 : Fin 1) k))

/-- What one block adds to entry (r, l) of the accumulator: quantity r mod 4 of the block's elements whose id is
    (r / 4)·128 + l. -/
def blockSum (x0 x1 : Blk.Idx → EReal) (x2 : Blk.Idx → BitVec 32) (r : Fin 24) (l : Fin 128) : EReal :=
  ∑ k : Fin 32768, if (x2 (ix2 (0 : Fin 1) k)).toInt = ((r.val / 4 * 128 + l.val : Nat) : Int)
    then bdatum x0 x1 ⟨r.val % 4, Nat.mod_lt _ (by decide)⟩ k else 0

/-- Element number of position k of block t. -/
def elt (t : Fin 512) (k : Fin 32768) : Fin 16777216 :=
  ⟨t.val * 32768 + k.val, by have := t.isLt; have := k.isLt; omega⟩

/-- Block t of the 512 blocks, number j of half h. -/
def blockOf (h : Fin 2) (j : Fin 256) : Fin 512 := ⟨h.val * 256 + j.val, by have := h.isLt; have := j.isLt; omega⟩

/-- Quantity q of basin b as the kernel's tail reads it off the output array: the two halves' entries at row
    (b / 128)·4 + q, lane b mod 128, added from zero. -/
def agg (out : Out.Idx → EReal) (q : Fin 4) (b : Fin 671) : EReal :=
  zero + ∑ h : Fin 2, out (ix3 h (⟨b.val / 128 * 4 + q.val, by have := b.isLt; have := q.isLt; omega⟩ : Fin 24)
    (⟨b.val % 128, Nat.mod_lt _ (by decide)⟩ : Fin 128))

/-- One basin's term as the kernel forms it from count c, sum s, sum of squares s2 and residual r. -/
def kterm (c s s2 r : EReal) : EReal :=
  one - Ideal.div (if zero < c then r else zero)
    ((if zero < c then s2 - Ideal.div (s * s) (max c one) else zero) + eps)

/-- The kernel's result from its output array. -/
def kval (out : Out.Idx → EReal) : EReal :=
  Ideal.div (zero + ∑ b : Fin 671, kterm (agg out 0 b) (agg out 1 b) (agg out 2 b) (agg out 3 b)) nbasins

/-- The same over the basin totals. -/
def kvalT (p y : Flat.Idx → EReal) (seg : Flat.Idx → BitVec 32) : EReal :=
  Ideal.div (zero + ∑ b : Fin 671, kterm (tot p y seg 0 b) (tot p y seg 1 b) (tot p y seg 2 b) (tot p y seg 3 b)) nbasins

/-! ## The reference's side -/

/-- Basin b's mean as the reference forms it: both totals scattered onto zero, then divided. -/
def rmean (p y : Flat.Idx → EReal) (seg : Flat.Idx → BitVec 32) (b : Fin 671) : EReal :=
  Ideal.div (zero + tot p y seg 1 b.val) (zero + tot p y seg 0 b.val)

/-- The basin whose mean the reference looks up for an id: a negative id is moved up by 671, and the result is clamped
    into the table. -/
def lookup (s : BitVec 32) : Fin 671 :=
  ⟨min ((if s.toInt < 0 then s + 671#32 else s).toInt.toNat) 670, by omega⟩

/-- Basin b's sum of squared deviations from the looked-up mean. -/
def dev (p y : Flat.Idx → EReal) (seg : Flat.Idx → BitVec 32) (b : Nat) : EReal :=
  ∑ i : Fin 16777216, if (seg (ix1 i)).toInt = (b : Int)
    then (y (ix1 i) - rmean p y seg (lookup (seg (ix1 i)))) * (y (ix1 i) - rmean p y seg (lookup (seg (ix1 i)))) else 0

/-- The reference's result. -/
def rval (p y : Flat.Idx → EReal) (seg : Flat.Idx → BitVec 32) : EReal :=
  Ideal.div (zero + ∑ b : Fin 671,
    (one - Ideal.div (zero + tot p y seg 3 b.val) ((zero + dev p y seg b.val) + eps))) nbasins

end Cert.Basins

end
-- ==== Proof.Step.lean ====
/-
  One grid point's update of the 24 × 128 accumulator, as one function of the point's three input blocks and of what
  the accumulator held before: the body's stored value with every intermediate it is built from filled in.
-/
import proofs.«408708_j47553877901938_3_alg».proof.Proof.Gen.KernelIdeal.Skeleton

noncomputable section

namespace Cert.KernelIdeal.Acc

open Idealize.ShloMosaic Cert.KernelIdeal Cert.KernelIdeal.Gen

variable {F : FTy → Type} [FloatOps F]

/-- The accumulator after a point, from the point's blocks (x0 of p, x1 of y, x2 of the ids) and the accumulator before. -/
def step (x0 x1 : Vec F S1x32768 .f32) (x2 : Vec F S1x32768 .i32) (acc : Vec F S24x128 .f32) : FVec F S24x128 .f32 :=
  k0_pay1 (k0_pay5 x0 x1) (k0_pay6 x2) (k0_pay7 x2) (k0_pay8 x0 x1 x2) (k0_pay9 x0 x1 x2) (k0_pay10) acc

end Cert.KernelIdeal.Acc

end
-- ==== Proof.Blocks.lean ====
/-
  The three input windows' blocks, named at their literal types, and what they read: block t of a flat argument array
  laid out as one row is its elements t·32768 … t·32768 + 32767.
-/
import proofs.«408708_j47553877901938_3_alg».proof.Proof.Spec
import proofs.«408708_j47553877901938_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Acc

open Idealize.ShloMosaic Idealize.ShloMosaic.TcCoe Idealize.ShloMosaic.ValueIdx Idealize.SL.Sem
open Cert.KernelIdeal Cert.KernelIdeal.Gen Cert.Basins

variable {F : FTy → Type} [FloatOps F]
variable (m : (ℓ : Loc nD τ sig) → Buf (Elt F) ℓ)

/-- Grid point number t of the 512. -/
abbrev pt (t : Fin 512) : Fin cfg0.N := ⟨t.val, lt_of_lt_of_eq t.isLt N_0.symm⟩

/-- The blocks of p, of y and of the ids at point t. -/
abbrev blk0 (c : Dev nD) (t : Fin 512) : Vec F S1x32768 .f32 := iblk m c 0 (pt t)
abbrev blk1 (c : Dev nD) (t : Fin 512) : Vec F S1x32768 .f32 := iblk m c 1 (pt t)
abbrev blk2 (c : Dev nD) (t : Fin 512) : Vec F S1x32768 .i32 := iblk m c 2 (pt t)

/-- The region finds each argument laid out as one row of 16777216. -/
theorem V_v0 (c : Dev nD) : (V m c main_v0 : S1x16777216.Idx → Elt F .f32)
    = shapeCast S1x16777216 (m ((c : Thread nD τ).loc main_arg0)) shapeCasts_S16777216_S1x16777216 := by
  show StableHlo.after hostOps0 (fun b => m (c, b)) (Proc.devRef .tc main_v0) = _
  after_results
  rfl
theorem V_v1 (c : Dev nD) : (V m c main_v1 : S1x16777216.Idx → Elt F .f32)
    = shapeCast S1x16777216 (m ((c : Thread nD τ).loc main_arg1)) shapeCasts_S16777216_S1x16777216 := by
  show StableHlo.after hostOps0 (fun b => m (c, b)) (Proc.devRef .tc main_v1) = _
  after_results
  rfl
theorem V_v2 (c : Dev nD) : (V m c main_v2 : S1x16777216.Idx → Elt F .i32)
    = shapeCast S1x16777216 (m ((c : Thread nD τ).loc main_arg2)) shapeCasts_S16777216_S1x16777216 := by
  show StableHlo.after hostOps0 (fun b => m (c, b)) (Proc.devRef .tc main_v2) = _
  after_results
  rfl

/-- The three input windows' index maps: block t is column block t of the one row. -/
theorem idx_facts : ∀ t : Fin cfg0.N, (win0_0.index t 0 = 0 ∧ win0_0.index t 1 = t.val)
    ∧ (win0_1.index t 0 = 0 ∧ win0_1.index t 1 = t.val) ∧ (win0_2.index t 0 = 0 ∧ win0_2.index t 1 = t.val) :=
  (by decide +kernel : ∀ t : Fin grid0.N, (win0_0.index t 0 = 0 ∧ win0_0.index t 1 = t.val)
    ∧ (win0_1.index t 0 = 0 ∧ win0_1.index t 1 = t.val) ∧ (win0_2.index t 0 = 0 ∧ win0_2.index t 1 = t.val))

/-- Position k of p's block t is element t·32768 + k of the first argument. -/
theorem blk0_apply (c : Dev nD) (t : Fin 512) (k : Fin 32768) :
    blk0 m c t (ix2 (0 : Fin 1) k) = m ((c : Thread nD τ).loc main_arg0) (ix1 (elt t k)) := by
  show iblk m c 0 (pt t) (ix2 (0 : Fin 1) k) = _
  unfold iblk
  rw [View.read_apply]
  show V m c main_v0 _ = _
  rw [V_v0]
  have he : ((cfg0.win 0).blk (pt t)).view.emb (ix2 (0 : Fin 1) k) = (ix2 (0 : Fin 1) (elt t k) : S1x16777216.Idx) := by
    obtain ⟨⟨h0, h1⟩, -, -⟩ := idx_facts (pt t)
    funext a
    apply Fin.ext
    match a with
    | ⟨0, _⟩ =>
      show win0_0.index (pt t) 0 * 1 + 1 * 0 = 0
      rw [h0]
    | ⟨1, _⟩ =>
      show win0_0.index (pt t) 1 * 32768 + 1 * k.val = t.val * 32768 + k.val
      rw [h1]
      show t.val * 32768 + 1 * k.val = t.val * 32768 + k.val
      omega
  rw [he, shapeCast_a_1a_apply]

/-- Position k of y's block t is element t·32768 + k of the second argument. -/
theorem blk1_apply (c : Dev nD) (t : Fin 512) (k : Fin 32768) :
    blk1 m c t (ix2 (0 : Fin 1) k) = m ((c : Thread nD τ).loc main_arg1) (ix1 (elt t k)) := by
  show iblk m c 1 (pt t) (ix2 (0 : Fin 1) k) = _
  unfold iblk
  rw [View.read_apply]
  show V m c main_v1 _ = _
  rw [V_v1]
  have he : ((cfg0.win 1).blk (pt t)).view.emb (ix2 (0 : Fin 1) k) = (ix2 (0 : Fin 1) (elt t k) : S1x16777216.Idx) := by
    obtain ⟨-, ⟨h0, h1⟩, -⟩ := idx_facts (pt t)
    funext a
    apply Fin.ext
    match a with
    | ⟨0, _⟩ =>
      show win0_1.index (pt t) 0 * 1 + 1 * 0 = 0
      rw [h0]
    | ⟨1, _⟩ =>
      show win0_1.index (pt t) 1 * 32768 + 1 * k.val = t.val * 32768 + k.val
      rw [h1]
      show t.val * 32768 + 1 * k.val = t.val * 32768 + k.val
      omega
  rw [he, shapeCast_a_1a_apply]

/-- Position k of the ids' block t is element t·32768 + k of the third argument. -/
theorem blk2_apply (c : Dev nD) (t : Fin 512) (k : Fin 32768) :
    blk2 m c t (ix2 (0 : Fin 1) k) = m ((c : Thread nD τ).loc main_arg2) (ix1 (elt t k)) := by
  show iblk m c 2 (pt t) (ix2 (0 : Fin 1) k) = _
  unfold iblk
  rw [View.read_apply]
  show V m c main_v2 _ = _
  rw [V_v2]
  have he : ((cfg0.win 2).blk (pt t)).view.emb (ix2 (0 : Fin 1) k) = (ix2 (0 : Fin 1) (elt t k) : S1x16777216.Idx) := by
    obtain ⟨-, -, ⟨h0, h1⟩⟩ := idx_facts (pt t)
    funext a
    apply Fin.ext
    match a with
    | ⟨0, _⟩ =>
      show win0_2.index (pt t) 0 * 1 + 1 * 0 = 0
      rw [h0]
    | ⟨1, _⟩ =>
      show win0_2.index (pt t) 1 * 32768 + 1 * k.val = t.val * 32768 + k.val
      rw [h1]
      show t.val * 32768 + 1 * k.val = t.val * 32768 + k.val
      omega
  rw [he, shapeCast_a_1a_apply]

end Cert.KernelIdeal.Acc

end
-- ==== Proof.PointValue.lean ====
/-
  One grid point's update of the accumulator read at an entry, over the extended reals: entry (r, l) gains the sum, over
  the block's 32768 positions, of quantity r mod 4 at the positions whose id is (r / 4)·128 + l.  The body reaches this as
  a matrix product of a 24-row operand (six copies of the four quantities, copy h kept only where the id's high part
  id >> 7 is h) with a 128-row one-hot of the id's low part id & 127.
-/
import proofs.«408708_j47553877901938_3_alg».proof.Proof.Spec
import proofs.«408708_j47553877901938_3_alg».proof.Proof.Step
import Idealize.ShloMosaic.Lib.ValueIdx
import Idealize.ShloMosaic.Lib.ValueLayout
import Idealize.ShloMosaic.Lib.Pipeline.Value
import Idealize.ShloMosaic.Lib.PackedFields
import Idealize.ShloMosaic.PureOps.Ideal.Laws

noncomputable section

open scoped BigOperators

namespace Cert.KernelIdeal.Acc

open Idealize.ShloMosaic Idealize.ShloMosaic.ValueIdx Cert.KernelIdeal Cert.KernelIdeal.Gen Cert.Basins

/-! ## Condition words as extended reals -/

/-- A condition bit widened to a word and converted, as an extended real: 1 where the bit is set, else 0. -/
theorem maskVal (b : BitVec 1) : ((((b.setWidth 32).toInt : ℤ) : ℝ) : EReal) = if b = 1#1 then 1 else 0 := by
  rcases BitVec.eq_zero_or_eq_one b with h | h
  · subst h
    rw [if_neg (by decide)]
    have : ((0#1 : BitVec 1).setWidth 32).toInt = 0 := by decide
    rw [this]; simp
  · subst h
    rw [if_pos rfl]
    have : ((1#1 : BitVec 1).setWidth 32).toInt = 1 := by decide
    rw [this]; simp

/-- Integer equality as a condition bit. -/
theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun h' => absurd h' (by decide), fun h' => absurd h' h⟩

/-- Equality of extended reals as a condition bit. -/
theorem cmp_oeq_one_iff (a b : EReal) : Ideal.cmp .oeq a b = 1#1 ↔ a = b := by
  show BitVec.ofBool (decide (a = b)) = 1#1 ↔ a = b
  by_cases h : a = b
  · subst h; simp
  · rw [decide_eq_false h]
    exact ⟨fun h' => absurd h' (by decide), fun h' => absurd h' h⟩

/-! ## The masks at a position -/

/-- The mask of the positions where two words agree, laid along four rows, read at (q, k). -/
theorem maskRows_apply (v c : IVec S1x32768 32) (h1 : 1 < 32) (hb : FTy.bits .bf16 < FTy.bits .f32)
    (hbc : S1x32768.Broadcasts S4x32768) (q : Fin 4) (k : Fin 32768) :
    (broadcastTo S4x32768 (truncf .bf16 (sitofp .f32 (extui 32 (cmpi .eq v c) h1) : FVec Ideal S1x32768 .f32) hb) hbc)
        (ix2 q k)
      = if v (ix2 (0 : Fin 1) k) = c (ix2 (0 : Fin 1) k) then (1 : EReal) else 0 := by
  have e := broadcastTo_apply (truncf .bf16 (sitofp .f32 (extui 32 (cmpi .eq v c) h1) : FVec Ideal S1x32768 .f32) hb) hbc
    (ix2 q k) (ix2 (0 : Fin 1) k) (by
      intro a
      match a with
      | ⟨0, _⟩ => rfl
      | ⟨1, _⟩ => rfl)
  rw [e]
  show ((((IntOp.cmpi .eq (v (ix2 (0 : Fin 1) k)) (c (ix2 (0 : Fin 1) k))).setWidth 32).toInt : ℝ) : EReal) = _
  rw [maskVal]
  simp only [cmpi_eq_one_iff]

/-- The comparison of the row numbers with a word per position, as a 128-row mask, read at (l, k): 1 exactly where the
    position's word is l. -/
theorem onehot_core (lo : IVec S1x32768 32) (h1 : 1 < 32) (hb : FTy.bits .bf16 < FTy.bits .f32)
    (hi : S128x1.Iotas .tc 32 [0]) (hb1 : S128x1.Broadcasts S128x32768) (hb2 : S1x32768.Broadcasts S128x32768)
    (l : Fin 128) (k : Fin 32768) :
    (truncf .bf16 (sitofp .f32 (extui 32 (cmpf .oeq
        (broadcastTo S128x32768 (sitofp .bf16 (iota .tc S128x1 32 [0] hi) : FVec Ideal S128x1 .bf16) hb1)
        (broadcastTo S128x32768 (sitofp .bf16 lo : FVec Ideal S1x32768 .bf16) hb2)) h1) : FVec Ideal S128x32768 .f32) hb)
        (ix2 l k)
      = if BitVec.ofNat 32 l.val = lo (ix2 (0 : Fin 1) k) then (1 : EReal) else 0 := by
  have e1 := broadcastTo_apply (sitofp .bf16 (iota .tc S128x1 32 [0] hi) : FVec Ideal S128x1 .bf16) hb1 (ix2 l k)
    (ix2 l (0 : Fin 1)) (by
      intro a
      match a with
      | ⟨0, _⟩ => rfl
      | ⟨1, _⟩ => rfl)
  have e2 := broadcastTo_apply (sitofp .bf16 lo : FVec Ideal S1x32768 .bf16) hb2 (ix2 l k) (ix2 (0 : Fin 1) k) (by
      intro a
      match a with
      | ⟨0, _⟩ => rfl
      | ⟨1, _⟩ => rfl)
  show ((((Ideal.cmp .oeq
      (broadcastTo S128x32768 (sitofp .bf16 (iota .tc S128x1 32 [0] hi) : FVec Ideal S128x1 .bf16) hb1 (ix2 l k))
      (broadcastTo S128x32768 (sitofp .bf16 lo : FVec Ideal S1x32768 .bf16) hb2 (ix2 l k))).setWidth 32).toInt : ℝ) : EReal) = _
  rw [e1, e2, maskVal]
  show (if Ideal.cmp .oeq ((((iota .tc S128x1 32 [0] hi (ix2 l (0 : Fin 1))).toInt : ℝ) : EReal))
      ((((lo (ix2 (0 : Fin 1) k)).toInt : ℝ) : EReal)) = 1#1 then (1 : EReal) else 0) = _
  rw [iota_single_apply]
  simp only [cmp_oeq_one_iff, EReal.coe_eq_coe_iff, Int.cast_inj, BitVec.toInt_inj]

/-- The one-hot of the ids' low seven bits: row l, position k holds 1 exactly where the id's low part is l. -/
theorem onehot_apply (x2 : Vec Ideal S1x32768 .i32) (l : Fin 128) (k : Fin 32768) :
    k0_pay7 (F := Ideal) x2 (ix2 l k)
      = if BitVec.ofNat 32 l.val = x2 (ix2 (0 : Fin 1) k) &&& 127#32 then (1 : EReal) else 0 := by
  unfold k0_pay7 k0_pay4
  simp only [shapeCast_self]
  exact onehot_core _ _ _ _ _ _ l k

/-! ## The stacked operands at a position -/

/-- A stack of four one-row blocks read at (q, k): block q at (0, k). -/
theorem concat4_apply {α : Type} (p0 p1 p2 p3 : S1x32768.Idx → α)
    (h : Shape.Concatenates [S1x32768, S1x32768, S1x32768, S1x32768] S4x32768 0) (q : Fin 4) (k : Fin 32768) :
    concatenate S4x32768 0 [⟨S1x32768, p0⟩, ⟨S1x32768, p1⟩, ⟨S1x32768, p2⟩, ⟨S1x32768, p3⟩] h (ix2 q k)
      = (![p0, p1, p2, p3] q) (ix2 (0 : Fin 1) k) := by
  have hi : ∀ (r : Fin 4) (b : Fin S1x32768.rank), b.cast (rfl : S1x32768.rank = S4x32768.rank) ≠ (0 : Fin S4x32768.rank) →
      ((ix2 (0 : Fin 1) k : S1x32768.Idx) b).val = ((ix2 r k : S4x32768.Idx) (b.cast rfl)).val := by
    intro r b hb
    match b with
    | ⟨0, _⟩ => exact absurd rfl hb
    | ⟨1, _⟩ => rfl
  fin_cases q
  · exact concatenate_apply_piece (t := S4x32768) 0
      ([⟨S1x32768, p0⟩, ⟨S1x32768, p1⟩, ⟨S1x32768, p2⟩, ⟨S1x32768, p3⟩] : List ((s : Shape) × (s.Idx → α))) h _
      0 (by simp) S1x32768 p0 rfl rfl 0 rfl (ix2 (0 : Fin 1) k) (hi _) rfl
  · exact concatenate_apply_piece (t := S4x32768) 0
      ([⟨S1x32768, p0⟩, ⟨S1x32768, p1⟩, ⟨S1x32768, p2⟩, ⟨S1x32768, p3⟩] : List ((s : Shape) × (s.Idx → α))) h _
      1 (by simp) S1x32768 p1 rfl rfl 1 rfl (ix2 (0 : Fin 1) k) (hi _) rfl
  · exact concatenate_apply_piece (t := S4x32768) 0
      ([⟨S1x32768, p0⟩, ⟨S1x32768, p1⟩, ⟨S1x32768, p2⟩, ⟨S1x32768, p3⟩] : List ((s : Shape) × (s.Idx → α))) h _
      2 (by simp) S1x32768 p2 rfl rfl 2 rfl (ix2 (0 : Fin 1) k) (hi _) rfl
  · exact concatenate_apply_piece (t := S4x32768) 0
      ([⟨S1x32768, p0⟩, ⟨S1x32768, p1⟩, ⟨S1x32768, p2⟩, ⟨S1x32768, p3⟩] : List ((s : Shape) × (s.Idx → α))) h _
      3 (by simp) S1x32768 p3 rfl rfl 3 rfl (ix2 (0 : Fin 1) k) (hi _) rfl

/-- The four-row operand at (q, k) is quantity q of position k. -/
theorem operand_apply (x0 x1 : Vec Ideal S1x32768 .f32) (q : Fin 4) (k : Fin 32768) :
    k0_pay5 x0 x1 (ix2 q k) = bdatum x0 x1 q k := by
  unfold k0_pay5
  rw [truncf_apply, concat4_apply]
  fin_cases q
  · rfl
  · simp only [shapeCast_self]; rfl
  · simp only [shapeCast_self]; rfl
  · simp only [shapeCast_self]; rfl

/-- A stack of six four-row blocks read at (c·4 + q, k): block c at (q, k). -/
theorem concat6_apply {α : Type} (p0 p1 p2 p3 p4 p5 : S4x32768.Idx → α)
    (h : Shape.Concatenates [S4x32768, S4x32768, S4x32768, S4x32768, S4x32768, S4x32768] S24x32768 0)
    (c : Fin 6) (q : Fin 4) (k : Fin 32768) :
    concatenate S24x32768 0 [⟨S4x32768, p0⟩, ⟨S4x32768, p1⟩, ⟨S4x32768, p2⟩, ⟨S4x32768, p3⟩, ⟨S4x32768, p4⟩,
        ⟨S4x32768, p5⟩] h (ix2 (⟨c.val * 4 + q.val, by have := c.isLt; have := q.isLt; omega⟩ : Fin 24) k)
      = (![p0, p1, p2, p3, p4, p5] c) (ix2 q k) := by
  have hi : ∀ (r : Fin 24) (b : Fin S4x32768.rank), b.cast (rfl : S4x32768.rank = S24x32768.rank) ≠ (0 : Fin S24x32768.rank) →
      ((ix2 q k : S4x32768.Idx) b).val = ((ix2 r k : S24x32768.Idx) (b.cast rfl)).val := by
    intro r b hb
    match b with
    | ⟨0, _⟩ => exact absurd rfl hb
    | ⟨1, _⟩ => rfl
  fin_cases c
  · exact concatenate_apply_piece (t := S24x32768) 0
      ([⟨S4x32768, p0⟩, ⟨S4x32768, p1⟩, ⟨S4x32768, p2⟩, ⟨S4x32768, p3⟩, ⟨S4x32768, p4⟩, ⟨S4x32768, p5⟩] :
        List ((s : Shape) × (s.Idx → α))) h _ 0 (by simp) S4x32768 p0 rfl rfl 0 rfl (ix2 q k) (hi _)
      (by show 0 + q.val = 0 * 4 + q.val; omega)
  · exact concatenate_apply_piece (t := S24x32768) 0
      ([⟨S4x32768, p0⟩, ⟨S4x32768, p1⟩, ⟨S4x32768, p2⟩, ⟨S4x32768, p3⟩, ⟨S4x32768, p4⟩, ⟨S4x32768, p5⟩] :
        List ((s : Shape) × (s.Idx → α))) h _ 1 (by simp) S4x32768 p1 rfl rfl 4 rfl (ix2 q k) (hi _)
      (by show 4 + q.val = 1 * 4 + q.val; omega)
  · exact concatenate_apply_piece (t := S24x32768) 0
      ([⟨S4x32768, p0⟩, ⟨S4x32768, p1⟩, ⟨S4x32768, p2⟩, ⟨S4x32768, p3⟩, ⟨S4x32768, p4⟩, ⟨S4x32768, p5⟩] :
        List ((s : Shape) × (s.Idx → α))) h _ 2 (by simp) S4x32768 p2 rfl rfl 8 rfl (ix2 q k) (hi _)
      (by show 8 + q.val = 2 * 4 + q.val; omega)
  · exact concatenate_apply_piece (t := S24x32768) 0
      ([⟨S4x32768, p0⟩, ⟨S4x32768, p1⟩, ⟨S4x32768, p2⟩, ⟨S4x32768, p3⟩, ⟨S4x32768, p4⟩, ⟨S4x32768, p5⟩] :
        List ((s : Shape) × (s.Idx → α))) h _ 3 (by simp) S4x32768 p3 rfl rfl 12 rfl (ix2 q k) (hi _)
      (by show 12 + q.val = 3 * 4 + q.val; omega)
  · exact concatenate_apply_piece (t := S24x32768) 0
      ([⟨S4x32768, p0⟩, ⟨S4x32768, p1⟩, ⟨S4x32768, p2⟩, ⟨S4x32768, p3⟩, ⟨S4x32768, p4⟩, ⟨S4x32768, p5⟩] :
        List ((s : Shape) × (s.Idx → α))) h _ 4 (by simp) S4x32768 p4 rfl rfl 16 rfl (ix2 q k) (hi _)
      (by show 16 + q.val = 4 * 4 + q.val; omega)
  · exact concatenate_apply_piece (t := S24x32768) 0
      ([⟨S4x32768, p0⟩, ⟨S4x32768, p1⟩, ⟨S4x32768, p2⟩, ⟨S4x32768, p3⟩, ⟨S4x32768, p4⟩, ⟨S4x32768, p5⟩] :
        List ((s : Shape) × (s.Idx → α))) h _ 5 (by simp) S4x32768 p5 rfl rfl 20 rfl (ix2 q k) (hi _)
      (by show 20 + q.val = 5 * 4 + q.val; omega)

/-! ## The matrix product at an entry -/

/-- The product's entry (r, l): the sum over the positions of the two operands' rows r and l. -/
theorem matmul_apply_rl (A : FVec Ideal S24x32768 .bf16) (B : FVec Ideal S128x32768 .bf16) (r : Fin 24) (l : Fin 128) :
    matmul dot_S24x32768_S128x32768_S24x128_1_1_0_0_n_n none A B (constant S24x128 .f32 0x00000000#32) (ix2 r l)
      = ∑ k : Fin 32768, A (ix2 r k) * B (ix2 l k) := by
  show FloatOps.matmul dot_S24x32768_S128x32768_S24x128_1_1_0_0_n_n none A B _ (ix2 r l) = _
  rw [Ideal.matmul_constant_zero_apply,
    ← Equiv.sum_comp (contrEquiv1 dot_S24x32768_S128x32768_S24x128_1_1_0_0_n_n 32768 rfl rfl).symm]
  refine Finset.sum_congr rfl fun c _ => ?_
  have c2 := contrEquiv1_symm_val dot_S24x32768_S128x32768_S24x128_1_1_0_0_n_n 32768 rfl rfl c
  have l2 : dot_S24x32768_S128x32768_S24x128_1_1_0_0_n_n.lhsIdx (ix2 r l)
      ((contrEquiv1 dot_S24x32768_S128x32768_S24x128_1_1_0_0_n_n 32768 rfl rfl).symm c) = ix2 r c := by
    funext ax; apply Fin.ext
    match ax with
    | ⟨0, _⟩ => simp [DotDims.lhsIdx, dot_S24x32768_S128x32768_S24x128_1_1_0_0_n_n]; rfl
    | ⟨1, _⟩ => simp [DotDims.lhsIdx, dot_S24x32768_S128x32768_S24x128_1_1_0_0_n_n]; exact c2
  have r2 : dot_S24x32768_S128x32768_S24x128_1_1_0_0_n_n.rhsIdx (ix2 r l)
      ((contrEquiv1 dot_S24x32768_S128x32768_S24x128_1_1_0_0_n_n 32768 rfl rfl).symm c) = ix2 l c := by
    funext ax; apply Fin.ext
    match ax with
    | ⟨0, _⟩ => simp [DotDims.rhsIdx, dot_S24x32768_S128x32768_S24x128_1_1_0_0_n_n]; rfl
    | ⟨1, _⟩ => simp [DotDims.rhsIdx, dot_S24x32768_S128x32768_S24x128_1_1_0_0_n_n]; exact c2
  rw [l2, r2]

/-! ## An id's two parts -/

/-- An id's high part is c and its low part l exactly when the id, read signed, is c·128 + l. -/
theorem id_parts_iff (x : BitVec 32) (c : Fin 6) (l : Fin 128) :
    (IntOp.shrsi .vector x 7#32 = BitVec.ofNat 32 c.val ∧ BitVec.ofNat 32 l.val = x &&& 127#32)
      ↔ x.toInt = ((c.val * 128 + l.val : Nat) : Int) := by
  have hc := c.isLt
  have hl := l.isLt
  have h1 := PackedFields.shrsi_eq_iff (u := .vector) x 7 c.val (by decide)
    (by have : (2 : Nat) ^ (31 - 7) = 16777216 := by norm_num
        omega)
  have hand : (x &&& 127#32).toNat = x.toNat % 128 := by
    rw [BitVec.toNat_and]
    exact Nat.and_two_pow_sub_one_eq_mod x.toNat 7
  have hofl : (BitVec.ofNat 32 l.val).toNat = l.val := by
    rw [BitVec.toNat_ofNat]; exact Nat.mod_eq_of_lt (by omega)
  have h2 : BitVec.ofNat 32 l.val = x &&& 127#32 ↔ l.val = x.toNat % 128 := by
    rw [← BitVec.toNat_inj, hofl, hand]
  have hx := BitVec.toInt_eq_toNat_cond x
  have hlt := x.isLt
  have h128 : (2 : Nat) ^ 7 = 128 := by norm_num
  rw [h1, h2, h128]
  constructor
  · rintro ⟨⟨ha, hb⟩, hm⟩
    split at hx <;> push_cast at * <;> omega
  · intro h
    split at hx <;> push_cast at * <;> omega

/-- A quantity times two 0/1 masks is the quantity where both conditions hold, else 0. -/
theorem mul_masks (d : EReal) (A B : Prop) [Decidable A] [Decidable B] :
    d * (if A then (1 : EReal) else 0) * (if B then (1 : EReal) else 0) = if A ∧ B then d else 0 := by
  by_cases hA : A <;> by_cases hB : B <;> simp [hA, hB]

/-! ## The 24-row operand at a position -/

/-- The mask of the positions where two words agree, laid along the four rows, as the body builds it. -/
abbrev hiMask (v c : IVec S1x32768 32) : FVec Ideal S4x32768 .bf16 :=
  broadcastTo S4x32768 (truncf .bf16 (sitofp .f32 (extui 32 (cmpi .eq v c) natLt_1_32) : FVec Ideal S1x32768 .f32)
    bitsLt_bf16_f32) broadcasts_S1x32768_S4x32768

/-- That mask at (q, k). -/
theorem hiMask_apply (v c : IVec S1x32768 32) (q : Fin 4) (k : Fin 32768) :
    hiMask v c (ix2 q k) = if v (ix2 (0 : Fin 1) k) = c (ix2 (0 : Fin 1) k) then (1 : EReal) else 0 :=
  maskRows_apply v c _ _ _ q k

/-- One four-row piece at (q, k): quantity q where the position's word agrees with the piece's constant, else 0. -/
theorem piece_apply (x0 x1 : Vec Ideal S1x32768 .f32) (v c : IVec S1x32768 32) (q : Fin 4) (k : Fin 32768) :
    mulf (k0_pay5 x0 x1) (hiMask v c) (ix2 q k)
      = bdatum x0 x1 q k * (if v (ix2 (0 : Fin 1) k) = c (ix2 (0 : Fin 1) k) then (1 : EReal) else 0) := by
  rw [mulf_apply, hiMask_apply, operand_apply]

/-- The stack of six such pieces at (c·4 + q, k): quantity q where the position's word agrees with piece c's constant. -/
theorem operand24_apply (x0 x1 : Vec Ideal S1x32768 .f32) (v c0 c1 c2 c3 c4 c5 : IVec S1x32768 32)
    (h : Shape.Concatenates [S4x32768, S4x32768, S4x32768, S4x32768, S4x32768, S4x32768] S24x32768 0)
    (c : Fin 6) (q : Fin 4) (k : Fin 32768) :
    concatenate S24x32768 0 [⟨S4x32768, mulf (k0_pay5 x0 x1) (hiMask v c0)⟩, ⟨S4x32768, mulf (k0_pay5 x0 x1) (hiMask v c1)⟩,
        ⟨S4x32768, mulf (k0_pay5 x0 x1) (hiMask v c2)⟩, ⟨S4x32768, mulf (k0_pay5 x0 x1) (hiMask v c3)⟩,
        ⟨S4x32768, mulf (k0_pay5 x0 x1) (hiMask v c4)⟩, ⟨S4x32768, mulf (k0_pay5 x0 x1) (hiMask v c5)⟩] h
        (ix2 (⟨c.val * 4 + q.val, by have := c.isLt; have := q.isLt; omega⟩ : Fin 24) k)
      = bdatum x0 x1 q k
        * (if v (ix2 (0 : Fin 1) k) = (![c0, c1, c2, c3, c4, c5] c) (ix2 (0 : Fin 1) k) then (1 : EReal) else 0) := by
  rw [concat6_apply]
  fin_cases c
  · exact piece_apply x0 x1 v c0 q k
  · exact piece_apply x0 x1 v c1 q k
  · exact piece_apply x0 x1 v c2 q k
  · exact piece_apply x0 x1 v c3 q k
  · exact piece_apply x0 x1 v c4 q k
  · exact piece_apply x0 x1 v c5 q k

/-- The ids' high part at a position. -/
theorem hi_apply (x2 : Vec Ideal S1x32768 .i32) (k : Fin 32768) :
    k0_pay6 (F := Ideal) x2 (ix2 (0 : Fin 1) k) = IntOp.shrsi .vector (x2 (ix2 (0 : Fin 1) k)) 7#32 := by
  unfold k0_pay6 k0_pay4
  simp only [shapeCast_self]
  rfl

/-! ## The update at an entry -/

/-- Entry (r, l) after a point is the entry before plus the block's contribution. -/
theorem step_apply (x0 x1 : Vec Ideal S1x32768 .f32) (x2 : Vec Ideal S1x32768 .i32) (acc : Vec Ideal S24x128 .f32)
    (r : Fin 24) (l : Fin 128) :
    step x0 x1 x2 acc (ix2 r l) = acc (ix2 r l) + blockSum x0 x1 x2 r l := by
  obtain ⟨c, q, rfl⟩ : ∃ (c : Fin 6) (q : Fin 4),
      r = ⟨c.val * 4 + q.val, by have := c.isLt; have := q.isLt; omega⟩ :=
    ⟨⟨r.val / 4, by have := r.isLt; omega⟩, ⟨r.val % 4, Nat.mod_lt _ (by decide)⟩,
      Fin.ext (by show r.val = r.val / 4 * 4 + r.val % 4; omega)⟩
  have hq : (⟨(c.val * 4 + q.val) % 4, Nat.mod_lt _ (by decide)⟩ : Fin 4) = q :=
    Fin.ext (by show (c.val * 4 + q.val) % 4 = q.val; have := q.isLt; omega)
  have hc : (c.val * 4 + q.val) / 4 = c.val := by have := q.isLt; omega
  unfold step k0_pay1 blockSum
  dsimp only
  rw [shapeCast_self, addf_apply, matmul_apply_rl]
  refine congrArg (HAdd.hAdd _) (Finset.sum_congr rfl fun k _ => ?_)
  refine (congrArg₂ HMul.hMul
    (operand24_apply x0 x1 (k0_pay6 x2) (broadcast S1x32768 0#32) (broadcast S1x32768 1#32) k0_pay10
      (broadcast S1x32768 3#32) (broadcast S1x32768 4#32) (broadcast S1x32768 5#32) _ c q k)
    (onehot_apply x2 l k)).trans ?_
  have hconst : (![broadcast S1x32768 0#32, broadcast S1x32768 1#32, k0_pay10, broadcast S1x32768 3#32,
      broadcast S1x32768 4#32, broadcast S1x32768 5#32] c : IVec S1x32768 32) (ix2 (0 : Fin 1) k)
        = BitVec.ofNat 32 c.val := by
    fin_cases c <;> rfl
  rw [hi_apply, hconst, mul_masks]
  by_cases hx : (x2 (ix2 (0 : Fin 1) k)).toInt = ((c.val * 128 + l.val : Nat) : Int)
  · rw [if_pos ((id_parts_iff _ c l).mpr hx), if_pos (by rw [hc]; exact hx), hq]
  · rw [if_neg (fun h => hx ((id_parts_iff _ c l).mp h)), if_neg (by rw [hc]; exact hx)]

end Cert.KernelIdeal.Acc

end
-- ==== Proof.Accumulate.lean ====
/-
  What the kernel's output array holds after the run.  The accumulator is reset at the first of each half's 256 points
  and every point adds its block's contribution; the last point of a half copies the accumulator into the half's
  24 × 128 block of the output.  So entry (h, r, l) of the output is the sum over half h's 256 blocks of what each adds
  at (r, l).
-/
import proofs.«408708_j47553877901938_3_alg».proof.Proof.Spec
import proofs.«408708_j47553877901938_3_alg».proof.Proof.Step
import proofs.«408708_j47553877901938_3_alg».proof.Proof.Blocks
import proofs.«408708_j47553877901938_3_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.Basins

/-! ## The zero offsets -/

namespace Accumulate

/-- The two zero offsets of a rank-2 block, and the three of a rank-3 block, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

end Accumulate

open Accumulate

/-! ## What each control case leaves, for any float values -/

section AnyInstance
variable {F : FTy → Type} [FloatOps F]

/-- A first point of a half resets the accumulator and adds its block. -/
theorem sout_A (c : Dev nD) (i : grid0.Coords) (arg2 : Memref sig .tc .vmem S1x32768 .f32) (harg2 : arg2.IsWhole) (arg3 : Memref sig .tc .vmem S1x32768 .f32) (harg3 : arg3.IsWhole) (arg4 : Memref sig .tc .vmem S1x32768 .i32) (harg4 : arg4.IsWhole) (arg5 : Memref sig .tc .vmem S1x24x128 .f32) (harg5 : arg5.IsWhole) (arg6 : Memref sig .tc .vmem S24x128 .f32) (harg6 : arg6.IsWhole) (hc0 : cond0_0 i) (hc1 : ¬cond0_1 i)
    (x0 : Vec F S1x32768 .f32) (x1 : Vec F S1x32768 .f32) (x2 : Vec F S1x32768 .i32) :
    sout0_A_0 c i arg2 harg2 arg3 harg3 arg4 harg4 arg5 harg5 arg6 harg6 hc0 hc1 x0 x1 x2 = step x0 x1 x2 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S24x128) hz2, View.readCov_unit_zero (S := S24x128) _ hz2]
  unfold step
  simp only [View.readAt_eq_ld, harg2.read_unread, harg3.read_unread, harg4.read_unread,
    View.ld_unit_zero (S := S1x32768) hz2]

/-- A middle point adds its block to what the point before left. -/
theorem sout_B (c : Dev nD) (i : grid0.Coords) (arg2 : Memref sig .tc .vmem S1x32768 .f32) (harg2 : arg2.IsWhole) (arg3 : Memref sig .tc .vmem S1x32768 .f32) (harg3 : arg3.IsWhole) (arg4 : Memref sig .tc .vmem S1x32768 .i32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : ¬cond0_1 i)
    (x0 : Vec F S1x32768 .f32) (x1 : Vec F S1x32768 .f32) (x2 : Vec F S1x32768 .i32) (xs0 : Vec F S24x128 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S24x128) hz2]
  unfold step
  simp only [View.readAt_eq_ld, harg2.read_unread, harg3.read_unread, harg4.read_unread, harg6.read_unread,
    View.ld_unit_zero (S := S1x32768) hz2, View.ld_unit_zero (S := S24x128) hz2]

/-- A last point of a half adds its block likewise, -/
theorem sout_C (c : Dev nD) (i : grid0.Coords) (arg2 : Memref sig .tc .vmem S1x32768 .f32) (harg2 : arg2.IsWhole) (arg3 : Memref sig .tc .vmem S1x32768 .f32) (harg3 : arg3.IsWhole) (arg4 : Memref sig .tc .vmem S1x32768 .i32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S1x32768 .f32) (x1 : Vec F S1x32768 .f32) (x2 : Vec F S1x32768 .i32) (xs0 : Vec F S24x128 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S24x128) hz2]
  unfold step
  simp only [View.readAt_eq_ld, harg2.read_unread, harg3.read_unread, harg4.read_unread, harg6.read_unread,
    View.ld_unit_zero (S := S1x32768) hz2, View.ld_unit_zero (S := S24x128) hz2]

/-- and stores the accumulator, as one 1 × 24 × 128 block, into the output window. -/
theorem out_C (c : Dev nD) (i : grid0.Coords) (arg2 : Memref sig .tc .vmem S1x32768 .f32) (harg2 : arg2.IsWhole) (arg3 : Memref sig .tc .vmem S1x32768 .f32) (harg3 : arg3.IsWhole) (arg4 : Memref sig .tc .vmem S1x32768 .i32) (harg4 : arg4.IsWhole) (arg5 : Memref sig .tc .vmem S1x24x128 .f32) (harg5 : arg5.IsWhole) (arg6 : Memref sig .tc .vmem S24x128 .f32) (harg6 : arg6.IsWhole) (hc0 : ¬cond0_0 i) (hc1 : cond0_1 i)
    (x0 : Vec F S1x32768 .f32) (x1 : Vec F S1x32768 .f32) (x2 : Vec F S1x32768 .i32) (xs0 : Vec F S24x128 .f32) :
    out0_C_3 c i arg2 harg2 arg3 harg3 arg4 harg4 arg5 harg5 arg6 harg6 hc0 hc1 x0 x1 x2 xs0 = k0_pay2 (step x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x24x128) hz3, View.readCov_unit_zero (S := S24x128) _ hz2]
  unfold step
  simp only [View.readAt_eq_ld, harg2.read_unread, harg3.read_unread, harg4.read_unread, harg6.read_unread,
    View.ld_unit_zero (S := S1x32768) hz2, View.ld_unit_zero (S := S24x128) hz2]

end AnyInstance

namespace Accumulate

/-! ## Over the extended reals: the accumulator after each point, and the output array -/

section AtIdeal
variable (m : (ℓ : Loc nD τ sig) → Buf (Elt Ideal) ℓ)

/-- What one point adds at an entry of the accumulator, as a hypothesis. -/
abbrev StepAdds : Prop :=
  ∀ (x0 x1 : Vec Ideal S1x32768 .f32) (x2 : Vec Ideal S1x32768 .i32) (acc : Vec Ideal S24x128 .f32)
    (r : Fin 24) (l : Fin 128), step x0 x1 x2 acc (ix2 r l) = acc (ix2 r l) + blockSum x0 x1 x2 r l

/-- The block the reset stores is zero at every entry. -/
theorem pay3_apply (i : S24x128.Idx) : (k0_pay3 (F := Ideal)) i = 0 := by
  unfold k0_pay3
  simp only [shapeCast_self]
  exact Ideal.ofBits_zero_f32

/-- Block n's contribution at entry (r, l), for every natural n: zero past the 512 blocks. -/
def addend (c : Dev nD) (n : ℕ) (r : Fin 24) (l : Fin 128) : EReal :=
  if h : n < 512 then blockSum (blk0 m c ⟨n, h⟩) (blk1 m c ⟨n, h⟩) (blk2 m c ⟨n, h⟩) r l else 0

/-- After a first point of a half the accumulator holds that point's contribution. -/
theorem acc_first (hstep : StepAdds) (c : Dev nD) (n : ℕ) (hn : n < cfg0.N) (h0 : n % 256 = 0)
    (r : Fin 24) (l : Fin 128) : (outsAt0 m c n hn).2 (ix2 r l) = addend m c n r l := by
  have hN : n < 512 := lt_of_lt_of_eq hn N_0
  have h1 : ¬n % 256 = 255 := by omega
  rw [outsAt0_A m c ⟨n, hn⟩ h0 h1]
  dsimp only
  refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (blk0 m c ⟨n, hN⟩) (blk1 m c ⟨n, hN⟩) (blk2 m c ⟨n, hN⟩)) (ix2 r l)).trans ?_
  rw [hstep, pay3_apply, zero_add]
  unfold addend
  rw [dif_pos hN]

/-- After any other point it holds what the point before left plus that point's contribution. -/
theorem acc_next (hstep : StepAdds) (c : Dev nD) (n : ℕ) (hn : n + 1 < cfg0.N) (h0 : ¬(n + 1) % 256 = 0)
    (r : Fin 24) (l : Fin 128) :
    (outsAt0 m c (n + 1) hn).2 (ix2 r l)
      = (outsAt0 m c n (Nat.lt_of_succ_lt hn)).2 (ix2 r l) + addend m c (n + 1) r l := by
  have hN : n + 1 < 512 := lt_of_lt_of_eq hn N_0
  by_cases h1 : (n + 1) % 256 = 255
  · rw [outsAt0_C m c ⟨n + 1, hn⟩ h0 h1]
    dsimp only
    refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (blk0 m c ⟨n + 1, hN⟩) (blk1 m c ⟨n + 1, hN⟩) (blk2 m c ⟨n + 1, hN⟩) (outsAt0 m c n (Nat.lt_of_succ_lt hn)).2) (ix2 r l)).trans ?_
    rw [hstep]
    unfold addend
    rw [dif_pos hN]
  · rw [outsAt0_B m c ⟨n + 1, hn⟩ h0 h1]
    dsimp only
    refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (blk0 m c ⟨n + 1, hN⟩) (blk1 m c ⟨n + 1, hN⟩) (blk2 m c ⟨n + 1, hN⟩) (outsAt0 m c n (Nat.lt_of_succ_lt hn)).2) (ix2 r l)).trans ?_
    rw [hstep]
    unfold addend
    rw [dif_pos hN]

/-- So after point n the accumulator holds the contributions of the blocks of n's half up to n. -/
theorem acc_eq (hstep : StepAdds) (c : Dev nD) : ∀ (n : ℕ) (hn : n < cfg0.N) (r : Fin 24) (l : Fin 128),
    (outsAt0 m c n hn).2 (ix2 r l) = ∑ s ∈ Finset.range (n % 256 + 1), addend m c (n / 256 * 256 + s) r l := by
  intro n
  induction n with
  | zero =>
    intro hn r l
    rw [acc_first m hstep c 0 hn rfl r l]
    simp
  | succ n ih =>
    intro hn r l
    by_cases h0 : (n + 1) % 256 = 0
    · have e : (n + 1) / 256 * 256 + 0 = n + 1 := by omega
      rw [acc_first m hstep c (n + 1) hn h0 r l, h0, Nat.zero_add, Finset.sum_range_one, e]
    · have e1 : (n + 1) % 256 = n % 256 + 1 := by omega
      have e2 : (n + 1) / 256 = n / 256 := by omega
      have e3 : n / 256 * 256 + (n % 256 + 1) = n + 1 := by omega
      rw [acc_next m hstep c n hn h0 r l, ih (Nat.lt_of_succ_lt hn) r l, e1, e2,
        Finset.sum_range_succ _ (n % 256 + 1), e3]

end AtIdeal

/-! ## From the accumulator to the output array -/

section Array
variable (m : (ℓ : Loc nD τ sig) → Buf (Elt Ideal) ℓ)

/-- At a last point of a half the output window's staging buffer holds the accumulator, as one 1 × 24 × 128 block. -/
theorem out_last (c : Dev nD) (t : Fin cfg0.N) (h0 : ¬t.val % 256 = 0) (h1 : t.val % 256 = 255) :
    (outsAt0 m c t.val t.isLt).1 = k0_pay2 (outsAt0 m c t.val t.isLt).2 := by
  have hN : t.val < 512 := lt_of_lt_of_eq t.isLt N_0
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c ⟨t.val, hN⟩) (blk1 m c ⟨t.val, hN⟩) (blk2 m c ⟨t.val, hN⟩) (outsAt0 m c (t.val - 1) (Nat.lt_of_le_of_lt (Nat.sub_le _ _) t.isLt)).2).trans
    (congrArg k0_pay2 (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c ⟨t.val, hN⟩) (blk1 m c ⟨t.val, hN⟩) (blk2 m c ⟨t.val, hN⟩) (outsAt0 m c (t.val - 1) (Nat.lt_of_le_of_lt (Nat.sub_le _ _) t.isLt)).2).symm)

/-- Entry (u, r, l) of the stored block is entry (r, l) of the accumulator. -/
theorem pay2_apply (S : Vec Ideal S24x128 .f32) (u : Fin 1) (r : Fin 24) (l : Fin 128) :
    k0_pay2 S (ix3 u r l) = S (ix2 r l) := by
  unfold k0_pay2
  exact shapeCast_ab_1ab_apply S _ u r l

/-- The output window's block index at point t is (t / 256, 0, 0): decided over the grid. -/
theorem idx3 : ∀ t : Fin cfg0.N, win0_3.index t (0 : Fin 3) = t.val / 256 ∧ win0_3.index t (1 : Fin 3) = 0
    ∧ win0_3.index t (2 : Fin 3) = 0 :=
  (by decide +kernel : ∀ t : Fin grid0.N, _)

/-- The contents the output array ends with: at (h, r, l) the contributions of half h's 256 blocks at (r, l). -/
def total (c : Dev nD) : Vec Ideal S2x24x128 .f32 := fun i =>
  ∑ j : Fin 256, blockSum (blk0 m c (blockOf (i 0) j)) (blk1 m c (blockOf (i 0) j)) (blk2 m c (blockOf (i 0) j)) (i 1) (i 2)

/-- What a last point of a half writes back is its block of those contents. -/
theorem flushed_eq (hstep : StepAdds) (c : Dev nD) (t : Fin cfg0.N) (hf : (cfg0.win 3).flush t = true) :
    (dats m 0 c).flushed 3 t = ((cfg0.win 3).blk t).view.read (Elt Ideal) (total m c) := by
  have hN : t.val < 512 := lt_of_lt_of_eq t.isLt N_0
  have h1 : t.val % 256 = 255 := (flush0_3 t).mp hf
  have h0 : ¬t.val % 256 = 0 := by omega
  obtain ⟨i0, i1, i2⟩ := idx3 t
  show (cfg0.win 3).cut (grid0.coords t) ((dats m 0 c).after 3 t) = _
  rw [after0_3, out_last m c t h0 h1]
  funext y
  have hy0 : (y 0).val < 1 := (y 0).isLt
  have hy1 : (y 1).val < 24 := (y 1).isLt
  have hy2 : (y 2).val < 128 := (y 2).isLt
  have hh : t.val / 256 < 2 := by omega
  have ey : (cfg0.win 3).xinj (grid0.coords t) y
      = ix3 (⟨(y 0).val, hy0⟩ : Fin 1) (⟨(y 1).val, hy1⟩ : Fin 24) (⟨(y 2).val, hy2⟩ : Fin 128) := by
    funext a
    match a with
    | ⟨0, _⟩ => rfl
    | ⟨1, _⟩ => rfl
    | ⟨2, _⟩ => rfl
  have eb : ((cfg0.win 3).blk t).view.emb y
      = ix3 (⟨t.val / 256, hh⟩ : Fin 2) (⟨(y 1).val, hy1⟩ : Fin 24) (⟨(y 2).val, hy2⟩ : Fin 128) := by
    funext a
    apply Fin.ext
    match a with
    | ⟨0, _⟩ => show win0_3.index t (0 : Fin 3) * 1 + 1 * (y 0).val = t.val / 256; omega
    | ⟨1, _⟩ => show win0_3.index t (1 : Fin 3) * 24 + 1 * (y 1).val = (y 1).val; omega
    | ⟨2, _⟩ => show win0_3.index t (2 : Fin 3) * 128 + 1 * (y 2).val = (y 2).val; omega
  show k0_pay2 (outsAt0 m c t.val t.isLt).2 ((cfg0.win 3).xinj (grid0.coords t) y)
    = total m c (((cfg0.win 3).blk t).view.emb y)
  rw [ey, eb, pay2_apply, acc_eq m hstep c t.val t.isLt, h1]
  show _ = ∑ j : Fin 256, blockSum (blk0 m c (blockOf ⟨t.val / 256, hh⟩ j)) (blk1 m c (blockOf ⟨t.val / 256, hh⟩ j))
    (blk2 m c (blockOf ⟨t.val / 256, hh⟩ j)) ⟨(y 1).val, hy1⟩ ⟨(y 2).val, hy2⟩
  rw [Finset.sum_range]
  refine Finset.sum_congr rfl fun j _ => ?_
  unfold addend
  rw [dif_pos (by have := j.isLt; omega)]
  rfl

/-- Every entry (h, r, l) of the output array is in the block the last point of half h writes back. -/
theorem cover (i : S2x24x128.Idx) :
    ∃ t : Fin cfg0.N, (cfg0.win 3).flush t = true ∧ i ∈ ((cfg0.win 3).blk t).view.set := by
  have hi0 : (i 0).val < 2 := (i 0).isLt
  have hi1 : (i 1).val < 24 := (i 1).isLt
  have hi2 : (i 2).val < 128 := (i 2).isLt
  have hlt : (i 0).val * 256 + 255 < cfg0.N := by rw [show cfg0.N = 512 from N_0]; omega
  have hq : ((i 0).val * 256 + 255) / 256 = (i 0).val := by omega
  obtain ⟨i0, i1, i2⟩ := idx3 ⟨(i 0).val * 256 + 255, hlt⟩
  have i0' : win0_3.index ⟨(i 0).val * 256 + 255, hlt⟩ (0 : Fin 3) = (i 0).val := i0.trans hq
  refine ⟨⟨(i 0).val * 256 + 255, hlt⟩, (flush0_3 _).mpr (by show ((i 0).val * 256 + 255) % 256 = 255; omega), ?_⟩
  show i ∈ ((View.whole main_v3).slice (win0_3.rect ⟨(i 0).val * 256 + 255, hlt⟩)).set
  rw [View.set_slice_whole, Rect.mem_set_unit]
  intro a
  match a with
  | ⟨0, _⟩ =>
    show win0_3.index ⟨(i 0).val * 256 + 255, hlt⟩ (0 : Fin 3) * 1 ≤ (i 0).val
      ∧ (i 0).val < win0_3.index ⟨(i 0).val * 256 + 255, hlt⟩ (0 : Fin 3) * 1 + 1
    omega
  | ⟨1, _⟩ =>
    show win0_3.index ⟨(i 0).val * 256 + 255, hlt⟩ (1 : Fin 3) * 24 ≤ (i 1).val
      ∧ (i 1).val < win0_3.index ⟨(i 0).val * 256 + 255, hlt⟩ (1 : Fin 3) * 24 + 24
    omega
  | ⟨2, _⟩ =>
    show win0_3.index ⟨(i 0).val * 256 + 255, hlt⟩ (2 : Fin 3) * 128 ≤ (i 2).val
      ∧ (i 2).val < win0_3.index ⟨(i 0).val * 256 + 255, hlt⟩ (2 : Fin 3) * 128 + 128
    omega

end Array

end Accumulate

/-- Over the extended reals, given what one point adds at an entry: entry (h, r, l) of the output array after the run is
    the sum over half h's 256 blocks of their contributions at (r, l). -/
theorem out_array (m : (ℓ : Loc nD τ sig) → Buf (Elt Ideal) ℓ)
    (hstep : ∀ (x0 x1 : Vec Ideal S1x32768 .f32) (x2 : Vec Ideal S1x32768 .i32) (acc : Vec Ideal S24x128 .f32)
      (r : Fin 24) (l : Fin 128), step x0 x1 x2 acc (ix2 r l) = acc (ix2 r l) + blockSum x0 x1 x2 r l)
    (c : Dev nD) (h : Fin 2) (r : Fin 24) (l : Fin 128) :
    (dats m 0 c).arrAt 3 cfg0.N (ix3 h r l)
      = ∑ j : Fin 256, blockSum (blk0 m c (blockOf h j)) (blk1 m c (blockOf h j)) (blk2 m c (blockOf h j)) r l := by
  have e := (dats m 0 c).arrAt_eq_of_cover 3 (total m c) (flushed_eq m hstep c) cover
  exact congrFun e (ix3 h r l)

end Cert.KernelIdeal.Acc

end
-- ==== Proof.TailFn.lean ====
/-
  The host operations after the kernel's region as ONE function of the kernel's 2 × 24 × 128 output array, operation by
  operation as the program prints them: add the two halves onto zero; re-lay the 24 rows as 6 × 4, swap to 4 × 6, flatten
  to 4 × 768; cut the first 671 entries of each of the four rows (count, sum, sum of squares, residual); then per basin
  max(count, 1), count > 0, sum·sum / max, the guarded difference and the guarded residual, + ε, the quotient, 1 − it; and the
  mean: the sum onto zero divided by 671.
-/
import proofs.«408708_j47553877901938_3_alg».proof.Proof.Spec
import proofs.«408708_j47553877901938_3_alg».proof.KernelIdeal
import proofs.«408708_j47553877901938_3_alg».proof.Proof.Gen.KernelIdeal

noncomputable section

namespace Cert.KernelIdeal.Tail

open Idealize.ShloMosaic Cert.KernelIdeal Cert.KernelIdeal.Gen

variable {F : FTy → Type} [FloatOps F]

/-- Row q of the 4 × 768 re-laid array, its first 671 entries. -/
def rowOf (v7 : FVec F S4x768 .f32) (off : Fin 2 → Nat) (hs : S4x768.Slices off S1x671) : FVec F S671 .f32 :=
  shapeCast S671 (extractStridedSlice S1x671 off v7 hs) shapeCasts_S1x671_S671

/-- The 4 × 768 array of (quantity, basin) from the kernel's output. -/
def relaid (out : FVec F S2x24x128 .f32) : FVec F S4x768 .f32 :=
  shapeCast S4x768
    (transpose S4x6x128 [1, 0, 2]
      (shapeCast S6x4x128
        (Host.reduceAdd out (constant S_ .f32 0x00000000#32 : FVec F S_ .f32) reducesTo_S2x24x128_S24x128_d0 h_S_)
        shapeCasts_S24x128_S6x4x128)
      transposes_S6x4x128_S4x6x128_1_0_2)
    shapeCasts_S4x6x128_S4x768

/-- A scalar constant spread over the 671 basins. -/
def spread (w : BitVec 32) : FVec F S671 .f32 :=
  broadcastInDim S671 ![] bcast_S_S671 (constant S_ .f32 w : FVec F S_ .f32)

/-- The whole tail. -/
def tailFn (out : FVec F S2x24x128 .f32) : FVec F S_ .f32 :=
  let v7 : FVec F S4x768 .f32 := relaid out
  let v9 : FVec F S671 .f32 := rowOf v7 ![0, 0] slices_S4x768_S1x671_0_0
  let v11 : FVec F S671 .f32 := rowOf v7 ![1, 0] slices_S4x768_S1x671_1_0
  let v13 : FVec F S671 .f32 := rowOf v7 ![2, 0] slices_S4x768_S1x671_2_0
  let v15 : FVec F S671 .f32 := rowOf v7 ![3, 0] slices_S4x768_S1x671_3_0
  let v17 : FVec F S671 .f32 := maximumf v9 (spread 0x3F800000#32)
  let v19 : IVec S671 1 := cmpf .ogt v9 (spread 0x00000000#32)
  let v22 : FVec F S671 .f32 := subf v13 (Host.divf (mulf v11 v11) v17)
  let v23 : FVec F S671 .f32 := select v19 v22 (spread 0x00000000#32)
  let v25 : IVec S671 1 := cmpf .ogt v9 (spread 0x00000000#32)
  let v26 : FVec F S671 .f32 := select v25 v15 (spread 0x00000000#32)
  let v28 : FVec F S671 .f32 := addf v23 (spread 0x2EDBE6FF#32)
  let v31 : FVec F S671 .f32 := subf (spread 0x3F800000#32) (Host.divf v26 v28)
  Host.divf (Host.reduceAdd v31 (constant S_ .f32 0x00000000#32 : FVec F S_ .f32) reducesTo_S671_S_d0 h_S_)
    (constant S_ .f32 0x4427C000#32 : FVec F S_ .f32)

end Cert.KernelIdeal.Tail

end
-- ==== Proof.LibScatter2.lean ====
/-
  Two host indexing operations read at an index, for any extents: the accumulating float scatter of the E
  entries of a vector into the entries of an [N × M] matrix that the rows of an [E × 2] array of
  (row, column) pairs name (jnp's A.at[r, c].add(u)), at the exact-arithmetic instance where the
  accumulation is a plain sum; and the gather of the entries of an [N] vector named by an [E × 1] column of
  positions (jnp's v[idx]).
-/
import Idealize.ShloMosaic.PureOps.Ideal
import Idealize.ShloMosaic.PureOps.Contract
import Idealize.ShloMosaic.Lib.ValueIdx

noncomputable section

namespace Idealize.ShloMosaic.PairOps

open Idealize.ShloMosaic Idealize.ShloMosaic.ValueIdx

/-- A sum over a rank-1 index set is the sum over its one coordinate. -/
theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update lands: update e lands on entry (i, j) exactly when the pair in row e of the index array, each
    component read signed, is (i, j). Both axes of the matrix are inserted (no window coordinate), so the landing
    coordinates are the two components themselves, not clamped: a negative component, or one past the matrix on its
    axis, lands nowhere. -/
theorem resultIdx_pair_iff {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1) (idx : IVec ⟨2, ![E, 2]⟩ w) (e : Fin E) (i : Fin N) (j : Fin M) :
    d.resultIdx? (ix1 e) idx = some (ix2 i j) ↔
      (idx (ix2 e (0 : Fin 2))).toInt = (i.val : Int) ∧ (idx (ix2 e (1 : Fin 2))).toInt = (j.val : Int) := by
  -- the matrix has no window axis
  have hsk : d.sKept = [] := by
    show (⟨2, ![N, M]⟩ : Shape).kept d.insertedWindowDims = []
    rw [hiw]; rfl
  have coord0 : ∀ X : Fin 1, ((ix1 e) X).val = e.val := fun X => by
    obtain rfl : X = 0 := Subsingleton.elim _ _
    rfl
  -- on operand axis a the start is component a of row e of the index array
  have hst : ∀ a : Fin 2, d.start (ix1 e) idx a = (idx (ix2 e a)).toInt := by
    intro a
    have ha : a ∈ d.scatterDimsToOperandDims := by
      rw [hsd]; match a with
      | ⟨0, _⟩ => exact List.mem_cons_self
      | ⟨1, _⟩ => exact List.mem_cons_of_mem _ List.mem_cons_self
    unfold ScatterDims.start
    rw [dif_pos ha]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf a d.scatterDimsToOperandDims = a.val
      rw [hsd]
      match a with
      | ⟨0, _⟩ => rfl
      | ⟨1, _⟩ => rfl
  have hw : ∀ a : Fin 2, d.window (ix1 e) a = 0 := fun a => by
    unfold ScatterDims.window; rw [dif_neg (by rw [hsk]; simp)]
  unfold ScatterDims.resultIdx?
  split
  · -- the landing index is inside the matrix: compare it with (i, j) coordinate by coordinate
    rename_i h
    rw [Option.some.injEq]
    constructor
    · intro hf
      have h0 : (d.start (ix1 e) idx 0 + d.window (ix1 e) 0).toNat = i.val := congrArg (fun f => (f 0).val) hf
      have h1 : (d.start (ix1 e) idx 1 + d.window (ix1 e) 1).toNat = j.val := congrArg (fun f => (f 1).val) hf
      have hh0 := (h 0).1
      have hh1 := (h 1).1
      rw [hst, hw] at h0 hh0 h1 hh1
      exact ⟨by omega, by omega⟩
    · rintro ⟨hi, hj⟩
      funext a
      match a with
      | ⟨0, _⟩ =>
        apply Fin.ext
        show (d.start (ix1 e) idx 0 + d.window (ix1 e) 0).toNat = i.val
        rw [hst, hw, hi]; omega
      | ⟨1, _⟩ =>
        apply Fin.ext
        show (d.start (ix1 e) idx 1 + d.window (ix1 e) 1).toNat = j.val
        rw [hst, hw, hj]; omega
  · -- the landing index leaves the matrix: then the pair names no entry, (i, j) least of all
    rename_i h
    constructor
    · intro hf; exact absurd hf (by simp)
    · rintro ⟨hi, hj⟩
      exfalso; apply h
      intro a
      match a with
      | ⟨0, _⟩ =>
        show 0 ≤ d.start (ix1 e) idx 0 + d.window (ix1 e) 0 ∧ d.start (ix1 e) idx 0 + d.window (ix1 e) 0 < (N : Int)
        rw [hst, hw, hi]; have := i.isLt; omega
      | ⟨1, _⟩ =>
        show 0 ≤ d.start (ix1 e) idx 1 + d.window (ix1 e) 1 ∧ d.start (ix1 e) idx 1 + d.window (ix1 e) 1 < (M : Int)
        rw [hst, hw, hj]; have := j.isLt; omega

/-- Entry (i, j) after the scatter: what was there plus the updates over the e whose pair is (i, j). -/
theorem scatterAdd_pair_apply {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j)
      = x (ix2 i j) + ∑ e : Fin E,
          if (idx (ix2 e (0 : Fin 2))).toInt = (i.val : Int) ∧ (idx (ix2 e (1 : Fin 2))).toInt = (j.val : Int)
          then upd (ix1 e) else 0 := by
  unfold Ideal.hostScatterAdd
  congr 1
  rw [Finset.sum_filter, sum_idx1]
  refine Finset.sum_congr rfl fun e _ => ?_
  by_cases he : (idx (ix2 e (0 : Fin 2))).toInt = (i.val : Int) ∧ (idx (ix2 e (1 : Fin 2))).toInt = (j.val : Int)
  · rw [if_pos he, if_pos ((resultIdx_pair_iff d hiw hsd hivd idx e i j).2 he)]
  · rw [if_neg he, if_neg fun h => he ((resultIdx_pair_iff d hiw hsd hivd idx e i j).1 h)]

/-- Entry e of the gathered vector is the operand's entry at e's position, read signed and clamped into the operand. -/
theorem gather_vec_apply {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 (⟨min (idx (ix2 e (0 : Fin 1))).toInt.toNat (N - 1), by omega⟩ : Fin N)) := by
  unfold Host.gather
  congr 1
  funext a
  obtain rfl : a = 0 := Subsingleton.elim _ _
  have coord0 : ∀ X : Fin 1, ((ix1 e) X).val = e.val := fun X => by
    obtain rfl : X = 0 := Subsingleton.elim _ _
    rfl
  apply Fin.ext
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  show d.start (ix1 e) idx 0 + d.batchCoord (ix1 e) 0 + d.offCoord (ix1 e) 0 = min (idx (ix2 e 0)).toInt.toNat (N - 1)
  rw [GatherDims.batchCoord_eq_zero _ _ _ (by rw [hob]; exact List.not_mem_nil), GatherDims.offCoord_eq_zero _ _ _ hk]
  simp only [Nat.add_zero]
  unfold GatherDims.start
  rw [dif_pos hm]
  show min (idx _).toInt.toNat (N - d.sliceSizes 0) = _
  rw [hsl]
  congr 3
  congr 1
  -- the start index is read at (e, 0): e from the result's one coordinate, 0 the one component of the index vector
  funext b
  match b with
  | ⟨0, _⟩ =>
    unfold GatherDims.siIdx
    rw [dif_neg (by rw [hivd]; simp)]
    unfold GatherDims.siCoord
    apply Fin.ext
    simp only [Fin.val_cast]
    exact coord0 _
  | ⟨1, _⟩ =>
    unfold GatherDims.siIdx
    rw [dif_pos (by rw [hivd])]
    apply Fin.ext
    show List.idxOf (0 : Fin 1) d.startIndexMap = 0
    rw [hsim]; simp

end Idealize.ShloMosaic.PairOps

end
-- ==== Proof.TailValue.lean ====
/-
  The tail function read over the extended reals, index by index: entry (q, b) of the re-laid 4 × 768 array is the two
  halves' entries at row (b / 128)·4 + q and lane b mod 128 of the kernel's output added onto zero; the per-basin
  operations are the extended reals' own; the final sum runs over the 671 basins.
-/
import proofs.«408708_j47553877901938_3_alg».proof.Proof.Spec
import proofs.«408708_j47553877901938_3_alg».proof.Proof.TailFn
import proofs.«408708_j47553877901938_3_alg».proof.Proof.LibScatter2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tail

open Idealize.ShloMosaic Idealize.ShloMosaic.ValueIdx Cert.KernelIdeal Cert.KernelIdeal.Gen Cert.Basins

/-- A select on the bit of the comparison c > z is the choice by z < c. -/
theorem select_gt {α : Type} (c z : EReal) (a b : α) :
    Scalar.select (Ideal.cmp .ogt c z) a b = if z < c then a else b := by
  show (if BitVec.ofBool (decide (z < c)) = 1#1 then a else b) = _
  by_cases h : z < c
  · rw [if_pos h, decide_eq_true h]
    exact if_pos (by decide)
  · rw [if_neg h, decide_eq_false h]
    exact if_neg (by decide)

/-- The two halves of the output added onto zero, at row r and lane l. -/
theorem halves_apply (out : FVec Ideal S2x24x128 .f32) (r : Fin 24) (l : Fin 128) :
    Host.reduceAdd (F := Ideal) out (constant S_ .f32 0x00000000#32 : FVec Ideal S_ .f32)
        reducesTo_S2x24x128_S24x128_d0 h_S_ (ix2 r l)
      = zero + ∑ h : Fin 2, out (ix3 h r l) := by
  have hr : S2x24x128.Reduces [0] S24x128 :=
    ⟨reducesTo_S2x24x128_S24x128_d0.1, by decide, reducesTo_S2x24x128_S24x128_d0.2⟩
  show Ideal.hostReduceAdd reducesTo_S2x24x128_S24x128_d0 out (Ideal.ofBits .f32 0x00000000#32) (ix2 r l) = _
  rw [Ideal.hostReduceAdd_single reducesTo_S2x24x128_S24x128_d0 hr]
  show _ + ∑ k : Fin 2, out (hr.lift (ix2 r l) k) = _
  congr 1
  refine Finset.sum_congr rfl fun k _ => ?_
  congr 1
  funext c
  apply Fin.ext
  match c with
  | ⟨0, _⟩ => rfl
  | ⟨1, _⟩ => rfl
  | ⟨2, _⟩ => rfl

/-- Entry (q, c) of the re-laid array: the halves' sum at row (c / 128)·4 + q and lane c mod 128. -/
theorem relaid_apply (out : FVec Ideal S2x24x128 .f32) (q : Fin 4) (c : Fin 768) :
    relaid (F := Ideal) out (ix2 q c)
      = zero + ∑ h : Fin 2, out (ix3 h (⟨c.val / 128 * 4 + q.val, by have := c.isLt; have := q.isLt; omega⟩ : Fin 24)
          (⟨c.val % 128, Nat.mod_lt _ (by decide)⟩ : Fin 128)) := by
  have hc := c.isLt
  have hq := q.isLt
  unfold relaid
  -- flattening 4 × 6 × 128 to 4 × 768 keeps the row-major position
  refine (shapeCast_apply _ shapeCasts_S4x6x128_S4x768 (ix2 q c)
    (ix3 q (⟨c.val / 128, by omega⟩ : Fin 6) (⟨c.val % 128, Nat.mod_lt _ (by decide)⟩ : Fin 128)) ?_).trans ?_
  · rw [Shape.rowMajor_val_three, Shape.rowMajor_val_two]
    show (q.val * 6 + c.val / 128) * 128 + c.val % 128 = q.val * 768 + c.val
    omega
  -- the swap of the first two axes
  refine (transpose_apply _ _ transposes_S6x4x128_S4x6x128_1_0_2 _
    (ix3 (⟨c.val / 128, by omega⟩ : Fin 6) q (⟨c.val % 128, Nat.mod_lt _ (by decide)⟩ : Fin 128))
    (fun b => match b with | ⟨0, _⟩ => rfl | ⟨1, _⟩ => rfl | ⟨2, _⟩ => rfl)).trans ?_
  -- splitting the 24 rows as 6 × 4 keeps the row-major position
  refine (shapeCast_apply _ shapeCasts_S24x128_S6x4x128 _
    (ix2 (⟨c.val / 128 * 4 + q.val, by omega⟩ : Fin 24) (⟨c.val % 128, Nat.mod_lt _ (by decide)⟩ : Fin 128)) ?_).trans ?_
  · rw [Shape.rowMajor_val_two, Shape.rowMajor_val_three]
    rfl
  exact halves_apply out _ _

/-- Row q of the re-laid array at basin b is the kernel's aggregate of quantity q for b. -/
theorem rowOf_apply (out : FVec Ideal S2x24x128 .f32) (q : Fin 4) (off : Fin 2 → Nat) (hoff : off = ![q.val, 0])
    (hs : S4x768.Slices off S1x671) (b : Fin 671) :
    rowOf (relaid (F := Ideal) out) off hs (ix1 b) = agg out q b := by
  subst hoff
  have hb := b.isLt
  unfold rowOf
  rw [shapeCast_1a_a_apply]
  refine (extractStridedSlice_apply _ _ hs (ix2 (0 : Fin 1) b) (ix2 q (⟨b.val, by omega⟩ : Fin 768)) (fun a =>
    match a with
    | ⟨0, _⟩ => by show q.val = q.val + 0; rfl
    | ⟨1, _⟩ => by show b.val = 0 + b.val; omega)).trans ?_
  exact relaid_apply out q ⟨b.val, by omega⟩

/-- A spread constant reads the extended real of its word at every basin. -/
theorem spread_apply (w : BitVec 32) (j : S671.Idx) : spread (F := Ideal) w j = Ideal.ofBits .f32 w := by
  unfold spread
  exact (broadcastInDim_apply _ bcast_S_S671 _ j ix0 (fun a => a.elim0)).trans rfl

/-- The per-basin operations at a basin are the kernel's term of the four rows' entries there. -/
theorem term_apply (c s s2 r : FVec Ideal S671 .f32) (j : S671.Idx) :
    subf (spread 0x3F800000#32)
        (Host.divf (select (cmpf .ogt c (spread 0x00000000#32)) r (spread 0x00000000#32))
          (addf (select (cmpf .ogt c (spread 0x00000000#32))
              (subf s2 (Host.divf (mulf s s) (maximumf c (spread 0x3F800000#32)))) (spread 0x00000000#32))
            (spread 0x2EDBE6FF#32))) j
      = kterm (c j) (s j) (s2 j) (r j) := by
  show spread (F := Ideal) 0x3F800000#32 j
      - Ideal.div (Scalar.select (Ideal.cmp .ogt (c j) (spread (F := Ideal) 0x00000000#32 j)) (r j)
          (spread (F := Ideal) 0x00000000#32 j))
        (Scalar.select (Ideal.cmp .ogt (c j) (spread (F := Ideal) 0x00000000#32 j))
            (s2 j - Ideal.div (s j * s j) (max (c j) (spread (F := Ideal) 0x3F800000#32 j)))
            (spread (F := Ideal) 0x00000000#32 j)
          + spread (F := Ideal) 0x2EDBE6FF#32 j) = _
  simp only [spread_apply, select_gt]
  rfl

/-- Over the extended reals the tail is the kernel's value of its output array. -/
theorem tailFn_eq (out : FVec Ideal S2x24x128 .f32) : tailFn out = fun _ => kval out := by
  funext i
  unfold tailFn
  dsimp only
  show Ideal.div (Ideal.hostReduceAdd reducesTo_S671_S_d0 _ zero i) nbasins = _
  rw [Ideal.hostReduceAdd_total reducesTo_S671_S_d0 (fun b => b.elim0), Idealize.ShloMosaic.PairOps.sum_idx1]
  unfold kval
  refine congrArg (fun t => Ideal.div (zero + t) nbasins) (Finset.sum_congr rfl fun b _ => ?_)
  rw [term_apply, rowOf_apply out 0 ![0, 0] rfl slices_S4x768_S1x671_0_0 b,
    rowOf_apply out 1 ![1, 0] rfl slices_S4x768_S1x671_1_0 b,
    rowOf_apply out 2 ![2, 0] rfl slices_S4x768_S1x671_2_0 b,
    rowOf_apply out 3 ![3, 0] rfl slices_S4x768_S1x671_3_0 b]

end Cert.KernelIdeal.Tail

end
-- ==== Proof.Tail.lean ====
/-
  The host operations after the kernel's region, run from the region's exit: the five stretches of operations, in order,
  leave in the program's result buffer the tail function of the kernel's output array; over the extended reals that is
  the kernel's value of the array.
-/
import proofs.«408708_j47553877901938_3_alg».proof.Proof.Spec
import proofs.«408708_j47553877901938_3_alg».proof.Proof.TailFn
import proofs.«408708_j47553877901938_3_alg».proof.Proof.TailValue
import proofs.«408708_j47553877901938_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Tail

open Idealize.ShloMosaic Idealize.ShloMosaic.TcCoe Idealize.ShloMosaic.ValueIdx Idealize.SL.Sem
open Idealize.ShloMosaic.Pipeline (Dat)
open Cert.KernelIdeal Cert.KernelIdeal.Gen Cert.Basins

/-! ## The five stretches, each from any contents, at any float instance

Each stretch is read at the buffers the later stretches use: what it computes there from the contents it starts from,
or that it leaves the buffer as it found it. -/

section Run

variable {F : FTy → Type} [FloatOps F]

/-- The first stretch leaves the counts in `main_v9`. -/
theorem first_v9 (V : Valuation τ sig (Elt F)) :
    StableHlo.after (hostOps1 (F := F)) V (Proc.devRef .tc main_v9)
      = rowOf (relaid (V (Proc.devRef .tc main_v3))) ![0, 0] slices_S4x768_S1x671_0_0 := by
  after_results
  rfl
/-- … the residual sums in `main_v15`. -/
theorem first_v15 (V : Valuation τ sig (Elt F)) :
    StableHlo.after (hostOps1 (F := F)) V (Proc.devRef .tc main_v15)
      = rowOf (relaid (V (Proc.devRef .tc main_v3))) ![3, 0] slices_S4x768_S1x671_3_0 := by
  after_results
  rfl
/-- … the bit count > 0 in `main_v19`. -/
theorem first_v19 (V : Valuation τ sig (Elt F)) :
    StableHlo.after (hostOps1 (F := F)) V (Proc.devRef .tc main_v19)
      = cmpf .ogt (rowOf (relaid (V (Proc.devRef .tc main_v3))) ![0, 0] slices_S4x768_S1x671_0_0) (spread 0x00000000#32) := by
  after_results
  rfl
/-- … s2 − s·s / max(count, 1) in `main_v22`. -/
theorem first_v22 (V : Valuation τ sig (Elt F)) :
    StableHlo.after (hostOps1 (F := F)) V (Proc.devRef .tc main_v22)
      = subf (rowOf (relaid (V (Proc.devRef .tc main_v3))) ![2, 0] slices_S4x768_S1x671_2_0)
          (Host.divf
            (mulf (rowOf (relaid (V (Proc.devRef .tc main_v3))) ![1, 0] slices_S4x768_S1x671_1_0)
              (rowOf (relaid (V (Proc.devRef .tc main_v3))) ![1, 0] slices_S4x768_S1x671_1_0))
            (maximumf (rowOf (relaid (V (Proc.devRef .tc main_v3))) ![0, 0] slices_S4x768_S1x671_0_0) (spread 0x3F800000#32))) := by
  after_results
  rfl
/-- … and the scalar zero in `main_cst_2`. -/
theorem first_cst2 (V : Valuation τ sig (Elt F)) :
    StableHlo.after (hostOps1 (F := F)) V (Proc.devRef .tc main_cst_2) = (constant S_ .f32 0x00000000#32 : FVec F S_ .f32) := by
  after_results

/-- The first guard: `main_v23` is `main_v22` where the bit `main_v19` is set, the scalar `main_cst_2` elsewhere. -/
theorem call0_v23 (V : Valuation τ sig (Elt F)) :
    StableHlo.after (hostOps1_1 (F := F)) V (Proc.devRef .tc main_v23)
      = select (V (Proc.devRef .tc main_v19)) (V (Proc.devRef .tc main_v22))
          (broadcastInDim S671 ![] bcast_S_S671 (id (V (Proc.devRef .tc main_cst_2)))) := by
  after_results
  rfl
theorem call0_v9 (V : Valuation τ sig (Elt F)) :
    StableHlo.after (hostOps1_1 (F := F)) V (Proc.devRef .tc main_v9) = V (Proc.devRef .tc main_v9) := by
  after_results
theorem call0_v15 (V : Valuation τ sig (Elt F)) :
    StableHlo.after (hostOps1_1 (F := F)) V (Proc.devRef .tc main_v15) = V (Proc.devRef .tc main_v15) := by
  after_results

/-- The third stretch forms the bit count > 0 again, in `main_v25`, and a scalar zero in `main_cst_4`. -/
theorem mid_v25 (V : Valuation τ sig (Elt F)) :
    StableHlo.after (hostOps1_2 (F := F)) V (Proc.devRef .tc main_v25)
      = cmpf .ogt (V (Proc.devRef .tc main_v9)) (spread 0x00000000#32) := by
  after_results
  rfl
theorem mid_cst4 (V : Valuation τ sig (Elt F)) :
    StableHlo.after (hostOps1_2 (F := F)) V (Proc.devRef .tc main_cst_4) = (constant S_ .f32 0x00000000#32 : FVec F S_ .f32) := by
  after_results
theorem mid_v15 (V : Valuation τ sig (Elt F)) :
    StableHlo.after (hostOps1_2 (F := F)) V (Proc.devRef .tc main_v15) = V (Proc.devRef .tc main_v15) := by
  after_results
theorem mid_v23 (V : Valuation τ sig (Elt F)) :
    StableHlo.after (hostOps1_2 (F := F)) V (Proc.devRef .tc main_v23) = V (Proc.devRef .tc main_v23) := by
  after_results

/-- The second guard: `main_v26` is `main_v15` where the bit `main_v25` is set, the scalar `main_cst_4` elsewhere. -/
theorem call1_v26 (V : Valuation τ sig (Elt F)) :
    StableHlo.after (hostOps1_3 (F := F)) V (Proc.devRef .tc main_v26)
      = select (V (Proc.devRef .tc main_v25)) (V (Proc.devRef .tc main_v15))
          (broadcastInDim S671 ![] bcast_S_S671 (id (V (Proc.devRef .tc main_cst_4)))) := by
  after_results
  rfl
theorem call1_v23 (V : Valuation τ sig (Elt F)) :
    StableHlo.after (hostOps1_3 (F := F)) V (Proc.devRef .tc main_v23) = V (Proc.devRef .tc main_v23) := by
  after_results

/-- The last stretch: the mean over the 671 basins of 1 − `main_v26` / (`main_v23` + ε). -/
theorem last_v33 (V : Valuation τ sig (Elt F)) :
    StableHlo.after (hostOps1_4 (F := F)) V (Proc.devRef .tc main_v33)
      = Host.divf
          (Host.reduceAdd
            (subf (spread 0x3F800000#32)
              (Host.divf (V (Proc.devRef .tc main_v26)) (addf (V (Proc.devRef .tc main_v23)) (spread 0x2EDBE6FF#32))))
            (constant S_ .f32 0x00000000#32 : FVec F S_ .f32) reducesTo_S671_S_d0 h_S_)
          (constant S_ .f32 0x4427C000#32 : FVec F S_ .f32) := by
  after_results
  rfl

/-- The five stretches in order, from any contents: the result buffer holds the tail function of what `main_v3` held. -/
theorem stretches (W : Valuation τ sig (Elt F)) :
    StableHlo.after (hostOps1_4 (F := F)) (StableHlo.after (hostOps1_3 (F := F)) (StableHlo.after (hostOps1_2 (F := F))
      (StableHlo.after (hostOps1_1 (F := F)) (StableHlo.after (hostOps1 (F := F)) W)))) (Proc.devRef .tc main_v33)
      = tailFn (W (Proc.devRef .tc main_v3)) := by
  rw [last_v33, call1_v26, call1_v23, mid_v25, mid_cst4, mid_v15, mid_v23, call0_v23, call0_v9, call0_v15,
    first_v9, first_v15, first_v19, first_v22, first_cst2]
  rfl

/-- The program's result buffer after the whole tail: the tail function of the output array the region left. -/
theorem tail_run (m : (ℓ : Loc nD τ sig) → Buf (Elt F) ℓ) (c : Dev nD) :
    Pipeline.afterTail₀ cfgs (dats m) 0 (V0 m) [hostOps1, hostOps1_1, hostOps1_2, hostOps1_3, hostOps1_4] c main_v33
      = tailFn ((dats m 0 c).arrAt 3 cfg0.N) := by
  unfold Pipeline.afterTail₀
  rw [List.flatten_cons, List.flatten_cons, List.flatten_cons, List.flatten_cons, List.flatten_cons, List.flatten_nil,
    List.append_nil, StableHlo.after_append, StableHlo.after_append, StableHlo.after_append, StableHlo.after_append,
    stretches]
  exact congrArg tailFn (Pipeline.withArrays_arr spec0 launch0.win.arr_inj c _ _ 3)

end Run

/-- Over the extended reals the program's result buffer ends at the kernel's value of its output array. -/
theorem tail_eq (m : (ℓ : Loc nD τ sig) → Buf (Elt Ideal) ℓ) (c : Dev nD) :
    Pipeline.afterTail₀ cfgs (dats m) 0 (V0 m) [hostOps1, hostOps1_1, hostOps1_2, hostOps1_3, hostOps1_4] c main_v33
      = fun _ => kval ((dats m 0 c).arrAt 3 cfg0.N) :=
  (tail_run m c).trans (tailFn_eq _)

end Cert.KernelIdeal.Tail

end
-- ==== Proof.Reindex.lean ====
/-
  The 16777216 elements are the 2 halves × 256 blocks × 32768 positions, each exactly once; and an id is
  (r / 4)·128 + l with r = (b / 128)·4 + q, l = b mod 128 exactly when it is b.  So the output array's entries, added over
  the two halves, are the basin totals.
-/
import proofs.«408708_j47553877901938_3_alg».proof.Proof.Spec
import Idealize.ShloMosaic.Lib.ValueIdx
import Idealize.ShloMosaic.PureOps.Ideal.Laws

noncomputable section

open scoped BigOperators

namespace Cert.Basins

open Idealize.ShloMosaic Idealize.ShloMosaic.ValueIdx

/-- An element number is a block number and a position in the block: t·32768 + k. -/
def eltEquiv : Fin 512 × Fin 32768 ≃ Fin 16777216 where
  toFun a := elt a.1 a.2
  invFun i := (⟨i.val / 32768, by have := i.isLt; omega⟩, ⟨i.val % 32768, Nat.mod_lt _ (by decide)⟩)
  left_inv := by
    rintro ⟨t, k⟩
    have ht := t.isLt
    have hk := k.isLt
    refine Prod.ext (Fin.ext ?_) (Fin.ext ?_)
    · show (t.val * 32768 + k.val) / 32768 = t.val
      omega
    · show (t.val * 32768 + k.val) % 32768 = k.val
      omega
  right_inv := by
    intro i
    refine Fin.ext ?_
    show i.val / 32768 * 32768 + i.val % 32768 = i.val
    omega

/-- A block number is a half and a block in the half: h·256 + j. -/
def blockEquiv : Fin 2 × Fin 256 ≃ Fin 512 where
  toFun a := blockOf a.1 a.2
  invFun t := (⟨t.val / 256, by have := t.isLt; omega⟩, ⟨t.val % 256, Nat.mod_lt _ (by decide)⟩)
  left_inv := by
    rintro ⟨h, j⟩
    have hh := h.isLt
    have hj := j.isLt
    refine Prod.ext (Fin.ext ?_) (Fin.ext ?_)
    · show (h.val * 256 + j.val) / 256 = h.val
      omega
    · show (h.val * 256 + j.val) % 256 = j.val
      omega
  right_inv := by
    intro t
    refine Fin.ext ?_
    show t.val / 256 * 256 + t.val % 256 = t.val
    omega

/-- A sum over all elements is the sum over halves, blocks and positions. -/
theorem sum_elements {M : Type*} [AddCommMonoid M] (g : Fin 16777216 → M) :
    ∑ i, g i = ∑ h : Fin 2, ∑ j : Fin 256, ∑ k : Fin 32768, g (elt (blockOf h j) k) := by
  rw [← Equiv.sum_comp eltEquiv g, Fintype.sum_prod_type,
    ← Equiv.sum_comp blockEquiv (fun t => ∑ k : Fin 32768, g (eltEquiv (t, k))), Fintype.sum_prod_type]
  rfl

/-- At row (b / 128)·4 + q and lane b mod 128 the selected id is b and the selected quantity is q. -/
theorem entry_term_eq (p y : Flat.Idx → EReal) (seg : Flat.Idx → BitVec 32) (r : Fin 24) (l : Fin 128) (q : Fin 4)
    (b : Fin 671) (hr : r.val = b.val / 128 * 4 + q.val) (hl : l.val = b.val % 128) (i : Fin 16777216) :
    (if (seg (ix1 i)).toInt = ((r.val / 4 * 128 + l.val : Nat) : Int)
      then datum p y ⟨r.val % 4, Nat.mod_lt _ (by decide)⟩ i else 0)
    = if (seg (ix1 i)).toInt = (b.val : Int) then datum p y q i else 0 := by
  have hq := q.isLt
  have e1 : r.val / 4 * 128 + l.val = b.val := by omega
  have e2 : (⟨r.val % 4, Nat.mod_lt _ (by decide)⟩ : Fin 4) = q := Fin.ext (by show r.val % 4 = q.val; omega)
  rw [e1, e2]

/-- An output array whose entry (h, r, l) is half h's blocks' contributions at (r, l) gives the kernel's tail the basin
    totals. -/
theorem agg_eq_tot (p y : Flat.Idx → EReal) (seg : Flat.Idx → BitVec 32) (out : Out.Idx → EReal)
    (hout : ∀ (h : Fin 2) (r : Fin 24) (l : Fin 128), out (ix3 h r l)
      = ∑ j : Fin 256, ∑ k : Fin 32768,
          if (seg (ix1 (elt (blockOf h j) k))).toInt = ((r.val / 4 * 128 + l.val : Nat) : Int)
          then datum p y ⟨r.val % 4, Nat.mod_lt _ (by decide)⟩ (elt (blockOf h j) k) else 0)
    (q : Fin 4) (b : Fin 671) : agg out q b = tot p y seg q b.val := by
  have hz : zero = 0 := Ideal.ofBits_zero_f32
  unfold agg tot
  rw [hz, zero_add, sum_elements]
  refine Finset.sum_congr rfl fun h _ => ?_
  rw [hout]
  refine Finset.sum_congr rfl fun j _ => Finset.sum_congr rfl fun k _ => ?_
  exact entry_term_eq p y seg _ _ q b rfl rfl _

end Cert.Basins

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.RefValue.lean ====
/-
  The reference's run read back over the extended reals: three scatters give every basin its count, its sum of y and
  its sum of (y − p)²; the means are looked up per element (a negative id moved up by 671, then clamped into the table);
  a fourth scatter gives every basin its sum of squared deviations; the per-basin terms are averaged.
-/
import proofs.«408708_j47553877901938_3_alg».proof.Proof.Spec
import proofs.«408708_j47553877901938_3_alg».proof.Proof.LibRowGatherScatter
import proofs.«408708_j47553877901938_3_alg».proof.Proof.LibScatter2
import proofs.«408708_j47553877901938_3_alg».proof.Proof.Gen.ReferenceIdeal.Run
import proofs.«408708_j47553877901938_3_alg».proof.Proof.Gen.ReferenceIdeal.Read
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.Basins
open Cert.ReferenceIdeal.Read

/-- The flat float arrays and the flat id array, as the reference's stages take them. -/
abbrev FArr := (⟨S16777216, .f32⟩ : BufTy).Contents (Elt Ideal)
abbrev IArr := (⟨S16777216, .i32⟩ : BufTy).Contents (Elt Ideal)
abbrev BArr := (⟨S671, .f32⟩ : BufTy).Contents (Elt Ideal)

/-- Entry (e, 0) of the id array laid out as a column is the id of element e. -/
theorem col_apply (x2 : IArr) (e : Fin 16777216) :
    val_main_v2 (F := Ideal) x2 (ix2 e (0 : Fin 1)) = x2 (ix1 e) := by
  rw [val_main_v2_apply]
  congr 1
  funext a
  match a with
  | ⟨0, _⟩ => rfl

/-- One scatter of the reference: entry b of the result is the operand's entry plus the updates of the elements
    whose id, read signed, is b. -/
theorem scatter_apply (x : BArr) (x2 : IArr) (upd : FArr) (b : Fin 671) :
    Host.scatterAdd (F := Ideal) (φ := .f32) scatter_S671_S16777216x1_S16777216_n_0_0_1 x (val_main_v2 (F := Ideal) x2) upd (ix1 b)
      = x (ix1 b) + ∑ e : Fin 16777216, if (x2 (ix1 e)).toInt = (b.val : Int) then upd (ix1 e) else 0 := by
  show Ideal.hostScatterAdd scatter_S671_S16777216x1_S16777216_n_0_0_1 x (val_main_v2 (F := Ideal) x2) upd (ix1 b) = _
  rw [Idealize.ShloMosaic.RowOps.scatterAdd_vec_apply _ rfl rfl rfl rfl]
  simp only [col_apply]

/-- The array of zeros every scatter starts from. -/
theorem zeros_apply (j : S671.Idx) : val_main_v1 (F := Ideal) j = zero := by
  rw [val_main_v1_apply, val_main_cst_0_apply]
  rfl

/-- The array of ones the count scatter adds. -/
theorem ones_apply (j : S16777216.Idx) : val_main_v0 (F := Ideal) j = one := by
  rw [val_main_v0_apply, val_main_cst_apply]
  rfl

/-- The first scatter gives basin b its count, added onto zero. -/
theorem v3_apply (p y : FArr) (x2 : IArr) (b : Fin 671) :
    val_main_v3 (F := Ideal) x2 (ix1 b) = zero + tot p y x2 0 b.val := by
  unfold val_main_v3
  rw [scatter_apply, zeros_apply]
  simp only [ones_apply]
  rfl

/-- The second scatter gives basin b its sum of y, added onto zero. -/
theorem v6_apply (p y : FArr) (x2 : IArr) (b : Fin 671) :
    val_main_v6 (F := Ideal) y x2 (ix1 b) = zero + tot p y x2 1 b.val := by
  unfold val_main_v6
  refine (scatter_apply _ x2 _ b).trans ?_
  rw [show val_main_v4 (F := Ideal) (ix1 b) = zero from zeros_apply _]
  rfl

/-- Their quotient is basin b's mean as the reference forms it. -/
theorem v7_apply (p y : FArr) (x2 : IArr) (b : Fin 671) :
    val_main_v7 (F := Ideal) y x2 (ix1 b) = rmean p y x2 b := by
  rw [val_main_v7_apply, v6_apply p y x2 b, v3_apply p y x2 b]
  rfl

/-- The third scatter gives basin b its sum of (y − p)², added onto zero. -/
theorem v12_apply (p y : FArr) (x2 : IArr) (b : Fin 671) :
    val_main_v12 (F := Ideal) p y x2 (ix1 b) = zero + tot p y x2 3 b.val := by
  unfold val_main_v12
  refine (scatter_apply _ x2 _ b).trans ?_
  rw [show val_main_v10 (F := Ideal) (ix1 b) = zero from zeros_apply _]
  rfl

/-- A negative id is moved up by 671; any other id is kept. -/
theorem v17_apply (x2 : IArr) (i : S16777216.Idx) :
    val_main_v17 (F := Ideal) x2 i = if (x2 i).toInt < 0 then x2 i + 671#32 else x2 i := by
  rw [val_main_v17_apply, val_main_v14_apply, val_main_v16_apply, val_main_v13_apply, val_main_c_apply,
    val_main_v15_apply, val_main_c_3_apply]
  show (if BitVec.ofBool ((x2 i).slt 0#32) = 1#1 then x2 i + 671#32 else x2 i) = _
  have h0 : (0#32 : BitVec 32).toInt = 0 := by decide
  by_cases h : (x2 i).toInt < 0
  · have hs : (x2 i).slt 0#32 = true := by rw [BitVec.slt_iff_toInt_lt, h0]; exact h
    rw [hs, if_pos h]
    rfl
  · have hs : (x2 i).slt 0#32 = false := by
      rw [Bool.eq_false_iff]
      intro hc
      rw [BitVec.slt_iff_toInt_lt, h0] at hc
      exact h hc
    rw [hs, if_neg h]
    rfl

/-- Entry (e, 0) of the wrapped ids laid out as a column is element e's wrapped id. -/
theorem wcol_apply (x2 : IArr) (e : Fin 16777216) :
    val_main_v18 (F := Ideal) x2 (ix2 e (0 : Fin 1))
      = if (x2 (ix1 e)).toInt < 0 then x2 (ix1 e) + 671#32 else x2 (ix1 e) := by
  rw [val_main_v18_apply]
  have hi : idx_main_v18 (ix2 e (0 : Fin 1)) = ix1 e := by
    funext a
    match a with
    | ⟨0, _⟩ => rfl
  rw [hi, v17_apply]

/-- The gather hands element e the mean of the basin its id is looked up at. -/
theorem v19_apply (p y : FArr) (x2 : IArr) (e : Fin 16777216) :
    val_main_v19 (F := Ideal) y x2 (ix1 e) = rmean p y x2 (lookup (x2 (ix1 e))) := by
  unfold val_main_v19
  refine (Idealize.ShloMosaic.PairOps.gather_vec_apply _ rfl rfl rfl rfl rfl _ _ e (by decide)).trans ?_
  have hl : ∀ h, (⟨min (val_main_v18 (F := Ideal) x2 (ix2 e (0 : Fin 1))).toInt.toNat (671 - 1), h⟩ : Fin 671)
      = lookup (x2 (ix1 e)) := by
    intro h
    apply Fin.ext
    show min _ (671 - 1) = min _ 670
    rw [wcol_apply]
  rw [hl]
  exact v7_apply p y x2 (lookup (x2 (ix1 e)))

/-- The fourth scatter gives basin b its sum of squared deviations from the looked-up means, added onto zero. -/
theorem v24_apply (p y : FArr) (x2 : IArr) (b : Fin 671) :
    val_main_v24 (F := Ideal) y x2 (ix1 b) = zero + dev p y x2 b.val := by
  unfold val_main_v24
  refine (scatter_apply _ x2 _ b).trans ?_
  rw [show val_main_v22 (F := Ideal) (ix1 b) = zero from zeros_apply _]
  simp only [val_main_v21_apply, val_main_v20_apply, v19_apply p y x2]
  rfl

/-- Basin b's term: one minus its residual over its deviations plus ε. -/
theorem v29_apply (p y : FArr) (x2 : IArr) (b : Fin 671) :
    val_main_v29 (F := Ideal) p y x2 (ix1 b)
      = one - Ideal.div (zero + tot p y x2 3 b.val) ((zero + dev p y x2 b.val) + eps) := by
  rw [val_main_v29_apply, val_main_v27_apply, val_main_v26_apply, v12_apply, v24_apply p y x2 b,
    val_main_v28_apply, val_main_cst_6_apply, val_main_v25_apply, val_main_cst_5_apply]
  rfl

/-- The reference's last stage is its value of the three arrays, at its one index. -/
theorem v31_eq (p y : FArr) (x2 : IArr) : val_main_v31 (F := Ideal) p y x2 = fun _ => rval p y x2 := by
  funext i
  rw [val_main_v31_apply, val_main_v30_apply, Idealize.ShloMosaic.PairOps.sum_idx1]
  simp only [v29_apply]
  rfl

/-- Every weakly fair execution of the reference ends with its result at the reference's value of the three argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31)
          = (fun _ => rval (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨(h c).1.trans ((val_main_v31_eq _ _ _).trans (v31_eq _ _ _)), (h c).2⟩)
    (Cert.ReferenceIdeal.Value.run (F := Ideal) m ρ)

end Cert.ReferenceIdeal.RefValue

end
-- ==== Proof.Algebra.lean ====
/-
  The law that joins the two sides.  For finite inputs every basin total is a real number and the count a natural
  number.  In a basin with c ≥ 1 elements, sum s and sum of squares s2, the squared deviations from the mean s / c add up
  to s2 − s·s / c, which is what the kernel forms (max c 1 = c there); in an empty basin both sides' numerator and
  deviation sum are 0.  So both programs average the same 671 terms.
-/
import proofs.«408708_j47553877901938_3_alg».proof.Proof.Spec
import Idealize.ShloMosaic.PureOps.Ideal.Laws
import Idealize.ShloMosaic.Lib.IdealHost
import Mathlib.Data.EReal.Basic
import Mathlib.Data.EReal.Operations
import Mathlib.Algebra.BigOperators.Ring.Finset
import Mathlib.Tactic.Ring
import Mathlib.Tactic.FieldSimp
import Mathlib.Tactic.NormNum
import Mathlib.Tactic.Linarith

noncomputable section

open scoped BigOperators

namespace Cert.Basins

open Idealize.ShloMosaic Idealize.ShloMosaic.ValueIdx

/-! ## The two literals -/

/-- The literal 0.0 is the extended real zero. -/
theorem zero_eq : zero = 0 := Ideal.ofBits_zero_f32

/-- The literal 1.0 is the extended real one. -/
theorem one_eq : one = 1 := Ideal.ofBits_one_f32

/-! ## Real sums inside the extended reals -/

/-- The embedding of the reals commutes with finite sums. -/
theorem coe_finsum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A guarded sum of embedded reals is the embedded real sum over the elements that pass the guard. -/
theorem sum_ite_coe {ι : Type*} [Fintype ι] (c : ι → Prop) [DecidablePred c] (f : ι → ℝ) :
    (∑ i, if c i then ((f i : ℝ) : EReal) else 0) = ((∑ i ∈ Finset.univ.filter c, f i : ℝ) : EReal) := by
  rw [coe_finsum, Finset.sum_filter]

/-- The squared deviations from the mean S / n of n ≠ 0 reals with sum S add up to the sum of squares less S·S / n. -/
theorem sum_sq_dev {ι : Type*} (s : Finset ι) (f : ι → ℝ) (S n : ℝ) (hS : ∑ j ∈ s, f j = S)
    (hn : (s.card : ℝ) = n) (hn0 : n ≠ 0) :
    ∑ i ∈ s, (f i - S * (1 / n)) * (f i - S * (1 / n)) = (∑ i ∈ s, f i * f i) - S * S * (1 / n) := by
  have h : ∀ i ∈ s, (f i - S * (1 / n)) * (f i - S * (1 / n))
      = f i * f i - (2 * (S * (1 / n))) * f i + (S * (1 / n)) * (S * (1 / n)) := fun i _ => by ring
  rw [Finset.sum_congr rfl h, Finset.sum_add_distrib, Finset.sum_sub_distrib, ← Finset.mul_sum, Finset.sum_const,
    nsmul_eq_mul, hS, hn]
  field_simp
  ring

/-! ## The kernel's term on real totals -/

/-- With a zero count the kernel's guards are shut: the term is 1 − 0 / (0 + ε). -/
theorem kterm_empty (s s2 r : EReal) : kterm 0 s s2 r = one - Ideal.div 0 (0 + eps) := by
  unfold kterm
  rw [zero_eq, if_neg (lt_irrefl _), if_neg (lt_irrefl _)]

/-- With a count n ≥ 1 the guards are open and max n 1 = n: the term is 1 − r / (s2 − s·s / n + ε). -/
theorem kterm_pos (n : ℕ) (hn : n ≠ 0) (s s2 r : ℝ) :
    kterm (((n : ℝ) : EReal)) (s : EReal) (s2 : EReal) (r : EReal)
      = one - Ideal.div (r : EReal) (((s2 - s * s * (1 / (n : ℝ)) : ℝ) : EReal) + eps) := by
  have hn0 : (n : ℝ) ≠ 0 := Nat.cast_ne_zero.mpr hn
  have hpos : (0 : EReal) < ((n : ℝ) : EReal) := EReal.coe_pos.mpr (Nat.cast_pos.mpr (Nat.pos_of_ne_zero hn))
  have hmax : max ((n : ℝ) : EReal) 1 = ((n : ℝ) : EReal) := by
    apply max_eq_left
    rw [← EReal.coe_one, EReal.coe_le_coe_iff]
    exact_mod_cast Nat.one_le_iff_ne_zero.mpr hn
  unfold kterm
  rw [zero_eq, one_eq, if_pos hpos, if_pos hpos, hmax, Ideal.div_coe hn0, ← EReal.coe_mul, ← EReal.coe_mul,
    ← EReal.coe_sub]

/-! ## The reference's table look-up -/

/-- An id that reads as a basin number b < 671 looks up basin b. -/
theorem lookup_of_toInt (s : BitVec 32) (b : Nat) (hb : b < 671) (h : s.toInt = (b : Int)) :
    lookup s = ⟨b, hb⟩ := by
  apply Fin.ext
  show min ((if s.toInt < 0 then s + 671#32 else s).toInt.toNat) 670 = b
  rw [if_neg (by omega)]
  omega

/-! ## The totals of a basin, as reals -/

/-- The real quantity q of element i, for real arrays. -/
def rdatum (py yy : Flat.Idx → ℝ) (q : Fin 4) (i : Fin 16777216) : ℝ :=
  match q with
  | 0 => 1
  | 1 => yy (ix1 i)
  | 2 => yy (ix1 i) * yy (ix1 i)
  | 3 => (yy (ix1 i) - py (ix1 i)) * (yy (ix1 i) - py (ix1 i))

theorem rdatum_zero (py yy : Flat.Idx → ℝ) (i : Fin 16777216) : rdatum py yy 0 i = 1 := rfl

/-- The elements of basin b. -/
def basin (seg : Flat.Idx → BitVec 32) (b : Nat) : Finset (Fin 16777216) :=
  Finset.univ.filter (fun i => (seg (ix1 i)).toInt = (b : Int))

theorem mem_basin (seg : Flat.Idx → BitVec 32) (b : Nat) (i : Fin 16777216) :
    i ∈ basin seg b ↔ (seg (ix1 i)).toInt = (b : Int) := by
  unfold basin
  rw [Finset.mem_filter]
  exact ⟨fun h => h.2, fun h => ⟨Finset.mem_univ i, h⟩⟩

section finite

variable (p y : Flat.Idx → EReal) (seg : Flat.Idx → BitVec 32) (py yy : Flat.Idx → ℝ)
  (hpy : ∀ i, p i = ((py i : ℝ) : EReal)) (hyy : ∀ i, y i = ((yy i : ℝ) : EReal))

include hpy hyy

/-- Every quantity of a finite input is an embedded real. -/
theorem datum_coe (i : Fin 16777216) :
    ∀ q : Fin 4, datum p y q i = ((rdatum py yy q i : ℝ) : EReal)
  | 0 => by
    show one = ((1 : ℝ) : EReal)
    rw [one_eq, EReal.coe_one]
  | 1 => hyy _
  | 2 => by
    show y (ix1 i) * y (ix1 i) = ((yy (ix1 i) * yy (ix1 i) : ℝ) : EReal)
    rw [EReal.coe_mul, hyy]
  | 3 => by
    show (y (ix1 i) - p (ix1 i)) * (y (ix1 i) - p (ix1 i))
      = (((yy (ix1 i) - py (ix1 i)) * (yy (ix1 i) - py (ix1 i)) : ℝ) : EReal)
    rw [EReal.coe_mul, EReal.coe_sub, hyy, hpy]

/-- Every basin total of a finite input is the embedded real sum over the basin. -/
theorem tot_coe (q : Fin 4) (b : Nat) :
    tot p y seg q b = ((∑ i ∈ basin seg b, rdatum py yy q i : ℝ) : EReal) := by
  refine Eq.trans ?_ (sum_ite_coe (fun i => (seg (ix1 i)).toInt = (b : Int)) (fun i => rdatum py yy q i))
  unfold tot
  refine Finset.sum_congr rfl fun i _ => ?_
  rw [datum_coe p y py yy hpy hyy i q]

/-- The count of a basin is its number of elements. -/
theorem tot0 (b : Nat) : tot p y seg 0 b = ((((basin seg b).card : ℕ) : ℝ) : EReal) := by
  rw [tot_coe p y seg py yy hpy hyy 0 b, Finset.sum_congr rfl (fun i _ => rdatum_zero py yy i), Finset.sum_const,
    nsmul_eq_mul, mul_one]

/-- The sum of a basin. -/
theorem tot1 (b : Nat) : tot p y seg 1 b = ((∑ i ∈ basin seg b, yy (ix1 i) : ℝ) : EReal) :=
  tot_coe p y seg py yy hpy hyy 1 b

/-- The sum of squares of a basin. -/
theorem tot2 (b : Nat) : tot p y seg 2 b = ((∑ i ∈ basin seg b, yy (ix1 i) * yy (ix1 i) : ℝ) : EReal) :=
  tot_coe p y seg py yy hpy hyy 2 b

/-- The residual of a basin. -/
theorem tot3 (b : Nat) :
    tot p y seg 3 b
      = ((∑ i ∈ basin seg b, (yy (ix1 i) - py (ix1 i)) * (yy (ix1 i) - py (ix1 i)) : ℝ) : EReal) :=
  tot_coe p y seg py yy hpy hyy 3 b

/-- The mean the reference forms for a non-empty basin is the real mean. -/
theorem rmean_coe (b : Nat) (hb : b < 671) (hn : (basin seg b).card ≠ 0) :
    rmean p y seg ⟨b, hb⟩
      = (((∑ i ∈ basin seg b, yy (ix1 i)) * (1 / (((basin seg b).card : ℕ) : ℝ)) : ℝ) : EReal) := by
  show Ideal.div (zero + tot p y seg 1 b) (zero + tot p y seg 0 b) = _
  rw [tot0 p y seg py yy hpy hyy b, tot1 p y seg py yy hpy hyy b, zero_eq, zero_add, zero_add,
    Ideal.div_coe (Nat.cast_ne_zero.mpr hn), ← EReal.coe_mul]

/-- The reference's deviation sum of an empty basin is 0. -/
theorem dev_empty (b : Nat) (hS : basin seg b = ∅) : dev p y seg b = 0 := by
  unfold dev
  refine Finset.sum_eq_zero fun i _ => ?_
  rw [if_neg]
  intro hc
  have : i ∈ basin seg b := (mem_basin seg b i).mpr hc
  rw [hS] at this
  exact absurd this (Finset.notMem_empty i)

/-- The reference's deviation sum of a non-empty basin b < 671 is the real sum of squared deviations from the mean. -/
theorem dev_pos (b : Nat) (hb : b < 671) (hn : (basin seg b).card ≠ 0) :
    dev p y seg b
      = ((∑ i ∈ basin seg b,
          (yy (ix1 i) - (∑ j ∈ basin seg b, yy (ix1 j)) * (1 / (((basin seg b).card : ℕ) : ℝ)))
            * (yy (ix1 i) - (∑ j ∈ basin seg b, yy (ix1 j)) * (1 / (((basin seg b).card : ℕ) : ℝ))) : ℝ) : EReal) := by
  refine Eq.trans ?_ (sum_ite_coe (fun i => (seg (ix1 i)).toInt = (b : Int)) _)
  unfold dev
  refine Finset.sum_congr rfl fun i _ => ?_
  by_cases hc : (seg (ix1 i)).toInt = (b : Int)
  · rw [if_pos hc, if_pos hc, lookup_of_toInt _ b hb hc, rmean_coe p y seg py yy hpy hyy b hb hn, hyy,
      ← EReal.coe_sub, ← EReal.coe_mul]
  · rw [if_neg hc, if_neg hc]

/-- One basin's term is the same on both sides. -/
theorem term_eq (b : Nat) (hb : b < 671) :
    kterm (tot p y seg 0 b) (tot p y seg 1 b) (tot p y seg 2 b) (tot p y seg 3 b)
      = one - Ideal.div (zero + tot p y seg 3 b) ((zero + dev p y seg b) + eps) := by
  rw [tot0 p y seg py yy hpy hyy b, tot1 p y seg py yy hpy hyy b, tot2 p y seg py yy hpy hyy b,
    tot3 p y seg py yy hpy hyy b]
  by_cases hn : (basin seg b).card = 0
  · have hS : basin seg b = ∅ := Finset.card_eq_zero.mp hn
    rw [dev_empty p y seg py yy hpy hyy b hS, hS]
    simp only [Finset.card_empty, Finset.sum_empty, Nat.cast_zero, EReal.coe_zero]
    rw [kterm_empty, zero_eq]
    simp only [zero_add]
  · rw [kterm_pos _ hn, dev_pos p y seg py yy hpy hyy b hb hn, zero_eq, zero_add, zero_add,
      sum_sq_dev (basin seg b) (fun i => yy (ix1 i)) _ _ rfl rfl (Nat.cast_ne_zero.mpr hn)]

end finite

/-- Over finite inputs the kernel's value of the basin totals is the reference's value. -/
theorem kvalT_eq_rval (p y : Flat.Idx → EReal) (seg : Flat.Idx → BitVec 32)
    (hp : ∀ i, ∃ r : ℝ, p i = (r : EReal)) (hy : ∀ i, ∃ r : ℝ, y i = (r : EReal)) :
    kvalT p y seg = rval p y seg := by
  choose py hpy using hp
  choose yy hyy using hy
  unfold kvalT rval
  refine congrArg (fun t => Ideal.div (zero + t) nbasins) (Finset.sum_congr rfl fun b _ => ?_)
  exact term_eq p y seg py yy hpy hyy b.val b.isLt

end Cert.Basins

end
-- ==== Proof.Finite.lean ====
/-
  The precondition says that |x| < +∞ at every entry of the two float arrays (two conjunctions over all entries, joined
  by an and).  An extended real whose absolute value max x (−x) lies below +∞ is a real number.
-/
import proofs.«408708_j47553877901938_3_alg».proof.Defs
import proofs.«408708_j47553877901938_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real with max x (−x) < +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- Where the comparison |x| < +∞ holds as a bit, x is a real number. -/
theorem real_of_bit (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  refine real_of_abs_lt_top x ?_
  rw [Ideal.cmpf_def, Ideal.hostAbsf_def, Ideal.absf_def, Ideal.ofBits_def, ofBits_inf] at h
  unfold Ideal.cmp at h
  by_contra hn
  simp [hn] at h

/-- Under the precondition every entry of both float arrays is a real number. -/
theorem finite_of_pre [hP : Cert.Pre_finite_inputs.Facts] (a0 a1 : FVec Ideal Cert.Pre_finite_inputs.S16777216 .f32)
    (a2 : IVec Cert.Pre_finite_inputs.S16777216 32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨hA, hB⟩ := IntOp.andi_eq_one.1 h0
  refine ⟨fun i => ?_, fun i => ?_⟩
  · have := Host.reduce_andi_all _ _ _ _ _ hA i
    exact real_of_bit (a0 i) this
  · have := Host.reduce_andi_all _ _ _ _ _ hB i
    exact real_of_bit (a1 i) this

end Cert.Finite

end
-- ==== Proof.lean ====
/-
  The certificate.  Both programs, read over the extended reals, end at one number: the mean over 671 basins of
  1 − res_b / (dev_b + ε), where per basin res_b is the sum of (y − p)² and dev_b the sum of squared deviations of y from
  the basin's mean.  The kernel reaches dev_b as s2 − s·s / c from one pass of one-hot matrix products accumulated over a
  2 × 256 grid; the reference as a second scatter of (y − mean)².  The two agree for finite inputs.
-/
import proofs.«408708_j47553877901938_3_alg».proof.Defs
import proofs.«408708_j47553877901938_3_alg».proof.Proof.Gen.Kernel
import proofs.«408708_j47553877901938_3_alg».proof.Proof.Gen.Kernel.Skeleton
import proofs.«408708_j47553877901938_3_alg».proof.Proof.Gen.Kernel.Launch
import proofs.«408708_j47553877901938_3_alg».proof.Proof.Gen.Kernel.Points
import proofs.«408708_j47553877901938_3_alg».proof.Proof.Gen.Kernel.Frame
import proofs.«408708_j47553877901938_3_alg».proof.Proof.Gen.KernelIdeal
import proofs.«408708_j47553877901938_3_alg».proof.Proof.Gen.KernelIdeal.Skeleton
import proofs.«408708_j47553877901938_3_alg».proof.Proof.Gen.KernelIdeal.Launch
import proofs.«408708_j47553877901938_3_alg».proof.Proof.Gen.KernelIdeal.Points
import proofs.«408708_j47553877901938_3_alg».proof.Proof.Gen.KernelIdeal.Frame
import proofs.«408708_j47553877901938_3_alg».proof.Proof.Gen.ReferenceIdeal
import proofs.«408708_j47553877901938_3_alg».proof.Proof.Gen.ReferenceIdeal.Run
import proofs.«408708_j47553877901938_3_alg».proof.Proof.Gen.Pre_finite_inputs
import proofs.«408708_j47553877901938_3_alg».proof.Proof.Spec
import proofs.«408708_j47553877901938_3_alg».proof.Proof.Step
import proofs.«408708_j47553877901938_3_alg».proof.Proof.Blocks
import proofs.«408708_j47553877901938_3_alg».proof.Proof.PointValue
import proofs.«408708_j47553877901938_3_alg».proof.Proof.Accumulate
import proofs.«408708_j47553877901938_3_alg».proof.Proof.Tail
import proofs.«408708_j47553877901938_3_alg».proof.Proof.Reindex
import proofs.«408708_j47553877901938_3_alg».proof.Proof.RefValue
import proofs.«408708_j47553877901938_3_alg».proof.Proof.Algebra
import proofs.«408708_j47553877901938_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Basins

/-- The three frames: the kernel at both instances by its generated frame, the reference by its generated run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

section Kernel
open Cert.KernelIdeal Cert.KernelIdeal.Gen Cert.KernelIdeal.Acc

/-- A block's quantities are the flat arrays' quantities at the block's elements. -/
theorem bdatum_blk (m : (ℓ : Loc nD τ sig) → Buf (Elt Ideal) ℓ) (c : Dev nD) (t : Fin 512) (q : Fin 4) (k : Fin 32768) :
    bdatum (blk0 m c t) (blk1 m c t) q k
      = datum (m ((c : Thread nD τ).loc main_arg0)) (m ((c : Thread nD τ).loc main_arg1)) q (elt t k) := by
  unfold bdatum datum
  rw [blk0_apply, blk1_apply]

/-- Entry (h, r, l) of the kernel's output array, over the flat arguments: half h's 256 blocks' elements whose id is
    (r / 4)·128 + l, quantity r mod 4. -/
theorem out_entry (m : (ℓ : Loc nD τ sig) → Buf (Elt Ideal) ℓ) (c : Dev nD) (h : Fin 2) (r : Fin 24) (l : Fin 128) :
    ((dats m 0 c).arrAt 3 cfg0.N (ix3 h r l) : EReal)
      = ∑ j : Fin 256, ∑ k : Fin 32768,
          if (m ((c : Thread nD τ).loc main_arg2) (ix1 (elt (blockOf h j) k))).toInt = ((r.val / 4 * 128 + l.val : Nat) : Int)
          then datum (m ((c : Thread nD τ).loc main_arg0)) (m ((c : Thread nD τ).loc main_arg1))
            ⟨r.val % 4, Nat.mod_lt _ (by decide)⟩ (elt (blockOf h j) k) else 0 := by
  refine @Eq.trans EReal _ _ _ (out_array m step_apply c h r l) ?_
  refine Finset.sum_congr rfl fun j _ => ?_
  unfold blockSum
  refine Finset.sum_congr rfl fun k _ => ?_
  rw [blk2_apply, bdatum_blk]

/-- The kernel's result is the kernel's value of the basin totals. -/
theorem kernel_value (m : (ℓ : Loc nD τ sig) → Buf (Elt Ideal) ℓ) (c : Dev nD) :
    Pipeline.afterTail₀ cfgs (dats m) 0 (V0 m) [hostOps1, hostOps1_1, hostOps1_2, hostOps1_3, hostOps1_4] c main_v33
      = fun _ => kvalT (m ((c : Thread nD τ).loc main_arg0)) (m ((c : Thread nD τ).loc main_arg1))
          (m ((c : Thread nD τ).loc main_arg2)) := by
  rw [Cert.KernelIdeal.Tail.tail_eq]
  funext _
  unfold kval kvalT
  simp only [agg_eq_tot (m ((c : Thread nD τ).loc main_arg0)) (m ((c : Thread nD τ).loc main_arg1))
    (m ((c : Thread nD τ).loc main_arg2)) ((dats m 0 c).arrAt 3 cfg0.N) (out_entry m c)]

/-- The kernel's run, read: the result at the kernel's value of the basin totals, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33)
          = (fun _ => kvalT (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v33 (Pipeline.mem_restRefs_of main_v33 (by decide) (by decide))).trans (kernel_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Kernel

/-- Over the extended reals and finite inputs both programs end at the same number. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hp, hy⟩ := Cert.Finite.finite_of_pre _ _ _ (hpre c)
  funext _
  exact (kvalT_eq_rval _ _ _ hp hy).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
